-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : IVec S4096 32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_c_6 : IVec S_ 32 := constantI S_ 32 0#32
  let main_v19 : IVec S4096 32 := broadcastInDim S4096 ![] bcast_S_S4096 main_c_6
  let main_v20 : IVec S4096 1 := cmpi .sge main_arg4 main_v19
  let main_c_7 : IVec S_ 32 := constantI S_ 32 3#32
  let main_v21 : IVec S4096 32 := broadcastInDim S4096 ![] bcast_S_S4096 main_c_7
  let main_v22 : IVec S4096 1 := cmpi .slt main_arg4 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  main_v25

def fn {F : FTy → Type} [FloatOps F] (main_arg0 : FVec F S4096x2048 .f32) (main_arg1 : FVec F S4096x2048 .f32) (main_arg2 : FVec F S4096x2048 .f32) (main_arg3 : FVec F S4096x2048 .f32) (main_arg4 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Kernel.lean ====
abbrev S4096x2048 : Shape := ⟨2, ![4096, 2048]⟩
abbrev S4096 : Shape := ⟨1, ![4096]⟩
abbrev S4096x1 : Shape := ⟨2, ![4096, 1]⟩
abbrev S16x128 : Shape := ⟨2, ![16, 128]⟩
abbrev S512x1 : Shape := ⟨2, ![512, 1]⟩
abbrev S512x1024 : Shape := ⟨2, ![512, 1024]⟩
abbrev S8x128 : Shape := ⟨2, ![8, 128]⟩
abbrev S1x1 : Shape := ⟨2, ![1, 1]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 13
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096, .i32⟩
  | .hbm, ⟨5, _⟩ => ⟨S4096x1, .i32⟩
  | .hbm, ⟨6, _⟩ => ⟨S16x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x1, .i32⟩
  | .local _ .vmem, ⟨1, _⟩ => ⟨S512x1, .i32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S8x128, .f32⟩
  | .local _ .vmem, ⟨12, _⟩ => ⟨S1x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 2], ![false, false, false]⟩

def k0_cond4 (i : grid0.Coords) : BitVec 1 :=
  let arg2 : BitVec 32 := BitVec.ofNat 32 (i 2).val
  let c1_i32_27 : BitVec 32 := 1#32
  let v44 : BitVec 1 := Scalar.cmpi .eq arg2 c1_i32_27
  let arg1 : BitVec 32 := BitVec.ofNat 32 (i 1).val
  let c3_i32 : BitVec 32 := 3#32
  let v45 : BitVec 1 := Scalar.cmpi .eq arg1 c3_i32
  let v46 : BitVec 1 := Scalar.andi v44 v45
  let v47 : BitVec 32 := Scalar.extui v46
  let c0_i32_28 : BitVec 32 := 0#32
  let v48 : BitVec 1 := Scalar.cmpi .ne v47 c0_i32_28
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inpos_S1x1_p0_0 : ∀ a, (![0, 0] : Fin 2 → Nat) a < S1x1.size a
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .i32 = 32 ∨ (Rect.block (s := S4096x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x2048.size a
  hwx0_1 : ∀ i : grid0.Coords, EltTy.bits .f32 = 32 ∨ (Rect.block (s := S4096x2048) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x2048.size a
  hwx0_2 : ∀ i : grid0.Coords, EltTy.bits .f32 = 32 ∨ (Rect.block (s := S4096x2048) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x2048.size a
  hwx0_3 : ∀ i : grid0.Coords, EltTy.bits .f32 = 32 ∨ (Rect.block (s := S4096x2048) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x2048.size a
  hwx0_4 : ∀ i : grid0.Coords, EltTy.bits .f32 = 32 ∨ (Rect.block (s := S4096x2048) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S4096x1x2048 : Shape := ⟨3, ![4096, 1, 2048]⟩
abbrev S4096x3x2048 : Shape := ⟨3, ![4096, 3, 2048]⟩
abbrev S4096x1x1 : Shape := ⟨3, ![4096, 1, 1]⟩
abbrev S_ : Shape := ⟨0, ![]⟩
abbrev S1 : Shape := ⟨1, ![1]⟩
abbrev S1x1x1 : Shape := ⟨3, ![1, 1, 1]⟩
abbrev S4096x1 : Shape := ⟨2, ![4096, 1]⟩
abbrev S4096x3 : Shape := ⟨2, ![4096, 3]⟩
abbrev S3 : Shape := ⟨1, ![3]⟩
abbrev S1x3 : Shape := ⟨2, ![1, 3]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096, .i32⟩
  | .hbm, ⟨5, _⟩ => ⟨S4096x1x2048, .f32⟩
  | .hbm, ⟨6, _⟩ => ⟨S4096x1x2048, .f32⟩
  | .hbm, ⟨7, _⟩ => ⟨S4096x1x2048, .f32⟩
  | .hbm, ⟨8, _⟩ => ⟨S4096x3x2048, .f32⟩
  | .hbm, ⟨9, _⟩ => ⟨S4096x1x1, .i32⟩
  | .hbm, ⟨10, _⟩ => ⟨S_, .i32⟩
  | .hbm, ⟨11, _⟩ => ⟨S4096x1x1, .i32⟩
  | .hbm, ⟨12, _⟩ => ⟨S4096x1x1, .i1⟩
  | .hbm, ⟨13, _⟩ => ⟨S_, .i32⟩
  | .hbm, ⟨14, _⟩ => ⟨S4096x1x1, .i32⟩
  | .hbm, ⟨15, _⟩ => ⟨S4096x1x1, .i32⟩
  | .hbm, ⟨16, _⟩ => ⟨S4096x1x1, .i32⟩
  | .hbm, ⟨17, _⟩ => ⟨S1, .i32⟩
  | .hbm, ⟨18, _⟩ => ⟨S_, .i32⟩
  | .hbm, ⟨19, _⟩ => ⟨S4096x1x1, .i32⟩
  | .hbm, ⟨20, _⟩ => ⟨S4096x1x1, .i1⟩
  | .hbm, ⟨21, _⟩ => ⟨S1x1x1, .i32⟩
  | .hbm, ⟨22, _⟩ => ⟨S4096x1x1, .i32⟩
  | .hbm, ⟨23, _⟩ => ⟨S4096x1x1, .i1⟩
  | .hbm, ⟨24, _⟩ => ⟨S4096x1x1, .i1⟩
  | .hbm, ⟨25, _⟩ => ⟨S_, .i1⟩
  | .hbm, ⟨26, _⟩ => ⟨S4096x1, .i1⟩
  | .hbm, ⟨27, _⟩ => ⟨S4096x1x2048, .f32⟩
  | .hbm, ⟨28, _⟩ => ⟨S4096x1x2048, .i1⟩
  | .hbm, ⟨29, _⟩ => ⟨S_, .f32⟩
  | .hbm, ⟨30, _⟩ => ⟨S4096x1x2048, .f32⟩
  | .hbm, ⟨31, _⟩ => ⟨S4096x1x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1x2048, .f32⟩
  | .hbm, ⟨42, _⟩ => ⟨S4096x3x2048, .f32⟩
  | .hbm, ⟨43, _⟩ => ⟨S4096x3x2048, .f32⟩
  | .hbm, ⟨44, _⟩ => ⟨S_, .f32⟩
  | .hbm, ⟨45, _⟩ => ⟨S4096x3x2048, .f32⟩
  | .hbm, ⟨46, _⟩ => ⟨S4096x3x2048, .f32⟩
  | .hbm, ⟨47, _⟩ => ⟨S4096x3x2048, .f32⟩
  | .hbm, ⟨48, _⟩ => ⟨S_, .f32⟩
  | .hbm, ⟨49, _⟩ => ⟨S4096x3, .f32⟩
  | .hbm, ⟨50, _⟩ => ⟨S4096x3, .f32⟩
  | .hbm, ⟨51, _⟩ => ⟨S4096x1, .f32⟩
  | .hbm, ⟨52, _⟩ => ⟨S4096x3, .f32⟩
  | .hbm, ⟨53, _⟩ => ⟨S4096x3, .f32⟩
  | .hbm, ⟨54, _⟩ => ⟨S_, .f32⟩
  | .hbm, ⟨55, _⟩ => ⟨S4096x3, .f32⟩
  | .hbm, ⟨56, _⟩ => ⟨S4096x3, .f32⟩
  | .hbm, ⟨57, _⟩ => ⟨S_, .f32⟩
  | .hbm, ⟨58, _⟩ => ⟨S4096x3, .f32⟩
  | .hbm, ⟨59, _⟩ => ⟨S4096x3, .f32⟩
  | .hbm, ⟨60, _⟩ => ⟨S3, .i32⟩
  | .hbm, ⟨61, _⟩ => ⟨S1x3, .i32⟩
  | .hbm, ⟨62, _⟩ => ⟨S4096x1, .i32⟩
  | .hbm, ⟨63, _⟩ => ⟨S4096x3, .i32⟩
  | .hbm, ⟨64, _⟩ => ⟨S4096x3, .i32⟩
  | .hbm, ⟨65, _⟩ => ⟨S4096x3, .i1⟩
  | .hbm, ⟨66, _⟩ => ⟨S_, .f32⟩
  | .hbm, ⟨67, _⟩ => ⟨S_, .f32⟩
  | .hbm, ⟨68, _⟩ => ⟨S4096x3, .f32⟩
  | .hbm, ⟨69, _⟩ => ⟨S4096x3, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_c_2 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_c_3 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_3 : Ref sig .tc := ⟨.hbm, 54, rfl⟩
abbrev main_v24 : Ref sig .tc := ⟨.hbm, 55, rfl⟩
abbrev main_v25 : Ref sig .tc := ⟨.hbm, 56, rfl⟩
abbrev main_cst_4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_5 : Ref sig .tc := ⟨.hbm, 66, rfl⟩
abbrev main_call1_v0 : Ref sig .tc := ⟨.hbm, 67, rfl⟩
abbrev main_call1_v1 : Ref sig .tc := ⟨.hbm, 68, rfl⟩
abbrev main_v34 : Ref sig .tc := ⟨.hbm, 69, rfl⟩
abbrev main_cst_6 : Ref sig .tc := ⟨.hbm, 70, rfl⟩
abbrev main_v35 : Ref sig .tc := ⟨.hbm, 71, rfl⟩
abbrev main_cst_7 : Ref sig .tc := ⟨.hbm, 72, rfl⟩
abbrev main_v36 : Ref sig .tc := ⟨.hbm, 73, rfl⟩

abbrev nD : Nat := 1
abbrev τ : Topo := Topo.v7x

variable {F : FTy → Type} [FloatOps F]

class Facts₀ : Prop where
  bcast_S4096x2048_S4096x1x2048_0_2 : S4096x2048.BroadcastsInDim S4096x1x2048 (![0, 2] : Fin 2 → Fin S4096x1x2048.rank)
  concatenates_S4096x1x2048_S4096x1x2048_S4096x1x2048_S4096x3x2048_d1 : Shape.Concatenates [S4096x1x2048, S4096x1x2048, S4096x1x2048] S4096x3x2048 1
  bcast_S4096_S4096x1x1_0 : S4096.BroadcastsInDim S4096x1x1 (![0] : Fin 1 → Fin S4096x1x1.rank)
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  bcast_S4096x1_S4096x1x2048_0_1 : S4096x1.BroadcastsInDim S4096x1x2048 (![0, 1] : Fin 2 → Fin S4096x1x2048.rank)
  bcast_S_S4096x1x2048 : S_.BroadcastsInDim S4096x1x2048 (![] : Fin 0 → Fin S4096x1x2048.rank)
  shapeCasts_S4096x1x2048_S4096x2048 : S4096x1x2048.ShapeCasts S4096x2048
  bcast_S_S4096x2048 : S_.BroadcastsInDim S4096x2048 (![] : Fin 0 → Fin S4096x2048.rank)
  reducesTo_S4096x2048_S4096_d1 : S4096x2048.ReducesTo [1] S4096
  bcast_S4096x1x2048_S4096x3x2048_0_1_2 : S4096x1x2048.BroadcastsInDim S4096x3x2048 (![0, 1, 2] : Fin 3 → Fin S4096x3x2048.rank)
  bcast_S_S4096x3x2048 : S_.BroadcastsInDim S4096x3x2048 (![] : Fin 0 → Fin S4096x3x2048.rank)
  reducesTo_S4096x3x2048_S4096x3_d2 : S4096x3x2048.ReducesTo [2] S4096x3
  bcast_S4096_S4096x1_0 : S4096.BroadcastsInDim S4096x1 (![0] : Fin 1 → Fin S4096x1.rank)
  bcast_S4096x1_S4096x3_0_1 : S4096x1.BroadcastsInDim S4096x3 (![0, 1] : Fin 2 → Fin S4096x3.rank)
  bcast_S_S4096x3 : S_.BroadcastsInDim S4096x3 (![] : Fin 0 → Fin S4096x3.rank)
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  reducesTo_S4096x3_S_d0_1 : S4096x3.ReducesTo [0, 1] S_
  gather_S4096x3x2048_S4096x1x1_S4096x1x2048_2_1_0_0_1_2_112048_wf : GatherDims.WF S4096x3x2048 S4096x1x1 S4096x1x2048 [2] [1] [0] [1] [0] 2 ![1, 1, 2048]

variable [Facts₀]

def gather_S4096x3x2048_S4096x1x1_S4096x1x2048_2_1_0_0_1_2_112048 : GatherDims S4096x3x2048 S4096x1x1 S4096x1x2048 where
  offsetDims := [2]
  collapsedSliceDims := [1]
  operandBatchingDims := [0]
  startIndicesBatchingDims := [0]
  startIndexMap := [1]
  indexVectorDim := 2
  sliceSizes := ![1, 1, 2048]
  wf := gather_S4096x3x2048_S4096x1x1_S4096x1x2048_2_1_0_0_1_2_112048_wf

class Facts : Prop extends Facts₀ where

variable [Facts]
-- ==== Proof.Pieces.lean ====
/-
  What each control case of the kernel body leaves in the four carried scratch buffers and in the output block, as the
  body's pure payloads of the point's input blocks and of what the point before left.  At a core's first point the
  running total is reset and the three squared-distance columns are reset and take the first chunk; at a later row
  block's first chunk only the columns are; at a second chunk the columns take the second chunk and the running total
  takes the row block's margin terms; at a core's last point the output block is written from the new total as well.
-/
import proofs.«424818_j9096740733656_3_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

theorem sA0 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : cond0_1 i) (hc2 : ¬cond0_2 i) (hc3 : ¬cond0_3 i) (x0 : Vec F S512x1 .i32) (x1 x2 x3 x4 : Vec F S512x1024 .f32) :
    sout0_A_0 c i arg3 harg3 arg4 harg4 arg5 harg5 arg6 harg6 arg7 harg7 arg8 harg8 arg9 harg9 arg10 harg10 arg11 harg11 arg12 harg12 hc0 hc1 hc2 hc3 x0 x1 x2 x3 x4 = k0_pay5 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 hc2 hc3 x0 x1 x2 x3 x4)]
  unfold kernelRun0_A
  dsimp only
  sl_unfold_words
  rw [View.canon_unit_zero hz]

theorem sA1 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : cond0_1 i) (hc2 : ¬cond0_2 i) (hc3 : ¬cond0_3 i) (x0 : Vec F S512x1 .i32) (x1 x2 x3 x4 : Vec F S512x1024 .f32) :
    sout0_A_1 c i arg3 harg3 arg4 harg4 arg5 harg5 arg6 harg6 arg7 harg7 arg8 harg8 arg9 harg9 arg10 harg10 arg11 harg11 arg12 harg12 hc0 hc1 hc2 hc3 x0 x1 x2 x3 x4 = k0_pay10 x1 x2 k0_pay6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 hc2 hc3 x0 x1 x2 x3 x4)]
  unfold kernelRun0_A
  dsimp only
  sl_unfold_words
  rw [View.canon_cons_unit_zero (S := S512x1) hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sA2 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : cond0_1 i) (hc2 : ¬cond0_2 i) (hc3 : ¬cond0_3 i) (x0 : Vec F S512x1 .i32) (x1 x2 x3 x4 : Vec F S512x1024 .f32) :
    sout0_A_2 c i arg3 harg3 arg4 harg4 arg5 harg5 arg6 harg6 arg7 harg7 arg8 harg8 arg9 harg9 arg10 harg10 arg11 harg11 arg12 harg12 hc0 hc1 hc2 hc3 x0 x1 x2 x3 x4 = k0_pay11 x1 x3 k0_pay7 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 hc0 hc1 hc2 hc3 x0 x1 x2 x3 x4)]
  unfold kernelRun0_A
  dsimp only
  sl_unfold_words
  rw [View.canon_cons_unit_zero (S := S512x1) hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sA3 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : cond0_1 i) (hc2 : ¬cond0_2 i) (hc3 : ¬cond0_3 i) (x0 : Vec F S512x1 .i32) (x1 x2 x3 x4 : Vec F S512x1024 .f32) :
    sout0_A_3 c i arg3 harg3 arg4 harg4 arg5 harg5 arg6 harg6 arg7 harg7 arg8 harg8 arg9 harg9 arg10 harg10 arg11 harg11 arg12 harg12 hc0 hc1 hc2 hc3 x0 x1 x2 x3 x4 = k0_pay1 (k0_pay9 x1) x4 k0_pay8 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 hc0 hc1 hc2 hc3 x0 x1 x2 x3 x4)]
  unfold kernelRun0_A
  dsimp only
  sl_unfold_words
  rw [View.canon_cons_unit_zero (S := S512x1) hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sC1 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (hc2 : ¬cond0_2 i) (hc3 : ¬cond0_3 i) (x0 : Vec F S512x1 .i32) (x1 x2 x3 x4 : Vec F S512x1024 .f32) (xs0 : Vec F S1x1 .f32) :
    sout0_C_1 c i arg3 harg3 arg4 harg4 arg5 harg5 arg6 harg6 arg7 harg7 arg8 harg8 arg9 harg9 arg10 harg10 arg11 harg11 arg12 harg12 hc0 hc1 hc2 hc3 x0 x1 x2 x3 x4 xs0 = k0_pay10 x1 x2 k0_pay6 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 hc2 hc3 x0 x1 x2 x3 x4 xs0)]
  unfold kernelRun0_C
  dsimp only
  sl_unfold_words
  rw [View.canon_cons_unit_zero (S := S512x1) hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sC2 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (hc2 : ¬cond0_2 i) (hc3 : ¬cond0_3 i) (x0 : Vec F S512x1 .i32) (x1 x2 x3 x4 : Vec F S512x1024 .f32) (xs0 : Vec F S1x1 .f32) :
    sout0_C_2 c i arg3 harg3 arg4 harg4 arg5 harg5 arg6 harg6 arg7 harg7 arg8 harg8 arg9 harg9 arg10 harg10 arg11 harg11 arg12 harg12 hc0 hc1 hc2 hc3 x0 x1 x2 x3 x4 xs0 = k0_pay11 x1 x3 k0_pay7 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 hc0 hc1 hc2 hc3 x0 x1 x2 x3 x4 xs0)]
  unfold kernelRun0_C
  dsimp only
  sl_unfold_words
  rw [View.canon_cons_unit_zero (S := S512x1) hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sC3 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (hc2 : ¬cond0_2 i) (hc3 : ¬cond0_3 i) (x0 : Vec F S512x1 .i32) (x1 x2 x3 x4 : Vec F S512x1024 .f32) (xs0 : Vec F S1x1 .f32) :
    sout0_C_3 c i arg3 harg3 arg4 harg4 arg5 harg5 arg6 harg6 arg7 harg7 arg8 harg8 arg9 harg9 arg10 harg10 arg11 harg11 arg12 harg12 hc0 hc1 hc2 hc3 x0 x1 x2 x3 x4 xs0 = k0_pay1 (k0_pay9 x1) x4 k0_pay8 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 hc0 hc1 hc2 hc3 x0 x1 x2 x3 x4 xs0)]
  unfold kernelRun0_C
  dsimp only
  sl_unfold_words
  rw [View.canon_cons_unit_zero (S := S512x1) hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sB0 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (hc2 : cond0_2 i) (hc3 : ¬cond0_3 i) (x0 : Vec F S512x1 .i32) (x1 x2 x3 x4 : Vec F S512x1024 .f32) (xs0 : Vec F S1x1 .f32) (xs1 xs2 xs3 : Vec F S512x1 .f32) :
    sout0_B_0 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3 = k0_pay2 (k0_pay4 x0 (k0_pay10 x1 x2 xs1) (k0_pay11 x1 x3 xs2) (k0_pay1 (k0_pay9 x1) x4 xs3) xs0) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sB1 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (hc2 : cond0_2 i) (hc3 : ¬cond0_3 i) (x0 : Vec F S512x1 .i32) (x1 x2 x3 x4 : Vec F S512x1024 .f32) (xs0 : Vec F S1x1 .f32) (xs1 xs2 xs3 : Vec F S512x1 .f32) :
    sout0_B_1 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3 = k0_pay10 x1 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sB2 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (hc2 : cond0_2 i) (hc3 : ¬cond0_3 i) (x0 : Vec F S512x1 .i32) (x1 x2 x3 x4 : Vec F S512x1024 .f32) (xs0 : Vec F S1x1 .f32) (xs1 xs2 xs3 : Vec F S512x1 .f32) :
    sout0_B_2 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3 = k0_pay11 x1 x3 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sB3 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (hc2 : cond0_2 i) (hc3 : ¬cond0_3 i) (x0 : Vec F S512x1 .i32) (x1 x2 x3 x4 : Vec F S512x1024 .f32) (xs0 : Vec F S1x1 .f32) (xs1 xs2 xs3 : Vec F S512x1 .f32) :
    sout0_B_3 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3 = k0_pay1 (k0_pay9 x1) x4 xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sD0 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (hc2 : cond0_2 i) (hc3 : cond0_3 i) (x0 : Vec F S512x1 .i32) (x1 x2 x3 x4 : Vec F S512x1024 .f32) (xs0 : Vec F S1x1 .f32) (xs1 xs2 xs3 : Vec F S512x1 .f32) :
    sout0_D_0 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3 = k0_pay2 (k0_pay4 x0 (k0_pay10 x1 x2 xs1) (k0_pay11 x1 x3 xs2) (k0_pay1 (k0_pay9 x1) x4 xs3) xs0) := by
  unfold sout0_D_0
  rw [View.read_writes_eq_canon _ _ _ (scover0_D_0 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3)]
  unfold kernelRun0_D
  dsimp only
  sl_unfold_words
  rw [View.canon_unit_zero hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sD1 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (hc2 : cond0_2 i) (hc3 : cond0_3 i) (x0 : Vec F S512x1 .i32) (x1 x2 x3 x4 : Vec F S512x1024 .f32) (xs0 : Vec F S1x1 .f32) (xs1 xs2 xs3 : Vec F S512x1 .f32) :
    sout0_D_1 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3 = k0_pay10 x1 x2 xs1 := by
  unfold sout0_D_1
  rw [View.read_writes_eq_canon _ _ _ (scover0_D_1 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3)]
  unfold kernelRun0_D
  dsimp only
  sl_unfold_words
  rw [View.canon_unit_zero hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sD2 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (hc2 : cond0_2 i) (hc3 : cond0_3 i) (x0 : Vec F S512x1 .i32) (x1 x2 x3 x4 : Vec F S512x1024 .f32) (xs0 : Vec F S1x1 .f32) (xs1 xs2 xs3 : Vec F S512x1 .f32) :
    sout0_D_2 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3 = k0_pay11 x1 x3 xs2 := by
  unfold sout0_D_2
  rw [View.read_writes_eq_canon _ _ _ (scover0_D_2 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3)]
  unfold kernelRun0_D
  dsimp only
  sl_unfold_words
  rw [View.canon_unit_zero hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem sD3 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (hc2 : cond0_2 i) (hc3 : cond0_3 i) (x0 : Vec F S512x1 .i32) (x1 x2 x3 x4 : Vec F S512x1024 .f32) (xs0 : Vec F S1x1 .f32) (xs1 xs2 xs3 : Vec F S512x1 .f32) :
    sout0_D_3 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3 = k0_pay1 (k0_pay9 x1) x4 xs3 := by
  unfold sout0_D_3
  rw [View.read_writes_eq_canon _ _ _ (scover0_D_3 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3)]
  unfold kernelRun0_D
  dsimp only
  sl_unfold_words
  rw [View.canon_unit_zero hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

theorem oD5 (c : Dev nD) (i : grid0.Coords) (arg3 : Memref sig .tc .vmem S512x1 .i32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (hc2 : cond0_2 i) (hc3 : cond0_3 i) (x0 : Vec F S512x1 .i32) (x1 x2 x3 x4 : Vec F S512x1024 .f32) (xs0 : Vec F S1x1 .f32) (xs1 xs2 xs3 : Vec F S512x1 .f32) :
    out0_D_5 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3 = k0_pay3 (k0_pay2 (k0_pay4 x0 (k0_pay10 x1 x2 xs1) (k0_pay11 x1 x3 xs2) (k0_pay1 (k0_pay9 x1) x4 xs3) xs0)) := by
  unfold out0_D_5
  rw [View.read_writes_eq_canon _ _ _ (cover0_D_5 c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3)]
  unfold kernelRun0_D
  dsimp only
  sl_unfold_words
  rw [View.canon_unit_zero hz]
  simp only [View.readAt_eq_ld, harg3.read_unread, harg4.read_unread, harg5.read_unread, harg6.read_unread, harg7.read_unread, harg9.read_unread, harg10.read_unread, harg11.read_unread, harg12.read_unread, View.ld_unit_zero (S := S512x1024) hz, View.ld_unit_zero (S := S512x1) hz, View.ld_unit_zero (S := S1x1) hz, View.readCov_unit_zero (S := S512x1) _ hz, View.readCov_unit_zero (S := S1x1) _ hz]

end Cert.KernelIdeal.Pieces
end
-- ==== Proof.Spec.lean ====
/-
  The triplet-margin loss of a batch of 4096 rows of 2048 lanes, written twice as ONE extended real each:
  once in the order the kernel computes it and once in the order the reference does.

  For a row i and a choice k the squared distance is the sum over the lanes j of the square of ex[i,j] - k[i,j] + eps;
  the kernel adds eps to ex[i,j] first, the reference adds it to the difference.  d_k is its square root.
  The positive distance p is d_a, d_b or d_c as the row's label is 0, 1 or anything else; a choice's term is
  max (p - d_k + 1) 0.  The kernel sums the three terms of every row, takes 4096 (one margin per row) off and divides by
  8192; the reference leaves the labelled choice's term out of the sum and divides by 8192.
-/
import Idealize.ShloMosaic.PureOps.Ideal
import Idealize.ShloMosaic.Lib.ValueIdx

noncomputable section

open scoped BigOperators

namespace Cert.Triplet

open Idealize.ShloMosaic Idealize.ShloMosaic.ValueIdx

/-- The shape of the four embedding arrays, of the label array, and of a scalar. -/
abbrev SBD : Shape := ⟨2, ![4096, 2048]⟩
abbrev SB : Shape := ⟨1, ![4096]⟩

/-- The float literals both programs carry, as the extended reals their words denote. -/
def eps : EReal := Ideal.ofBits .f32 0x358637BD#32
def c1 : EReal := Ideal.ofBits .f32 0x3F800000#32
def c4096 : EReal := Ideal.ofBits .f32 0x45800000#32
def c8192 : EReal := Ideal.ofBits .f32 0x46000000#32

/-- One lane's deviation, in the kernel's order and in the reference's. -/
def devK (x k : EReal) : EReal := (x + eps) - k
def devR (x k : EReal) : EReal := (x - k) + eps

/-- A row's squared distance to a choice: the sum over its 2048 lanes of the squared deviation. -/
def ssK (ex k : SBD.Idx → EReal) (i : Fin 4096) : EReal :=
  ∑ j : Fin 2048, devK (ex (ix2 i j)) (k (ix2 i j)) * devK (ex (ix2 i j)) (k (ix2 i j))
def ssR (ex k : SBD.Idx → EReal) (i : Fin 4096) : EReal :=
  ∑ j : Fin 2048, devR (ex (ix2 i j)) (k (ix2 i j)) * devR (ex (ix2 i j)) (k (ix2 i j))

/-- The value a label selects among three: the first at 0, the second at 1, the third otherwise. -/
def pick {α : Type} (w : BitVec 32) (xa xb xc : α) : α := if w = 0#32 then xa else if w = 1#32 then xb else xc

/-- One choice's margin term. -/
def hinge (p d : EReal) : EReal := max ((p - d) + c1) 0

/-- The kernel's row: all three margin terms against the picked distance. -/
def rowK (ex a b c : SBD.Idx → EReal) (idx : SB.Idx → BitVec 32) (i : Fin 4096) : EReal :=
  (hinge (pick (idx (ix1 i)) (Ideal.sqrt (ssK ex a i)) (Ideal.sqrt (ssK ex b i)) (Ideal.sqrt (ssK ex c i))) (Ideal.sqrt (ssK ex a i))
    + hinge (pick (idx (ix1 i)) (Ideal.sqrt (ssK ex a i)) (Ideal.sqrt (ssK ex b i)) (Ideal.sqrt (ssK ex c i))) (Ideal.sqrt (ssK ex b i)))
    + hinge (pick (idx (ix1 i)) (Ideal.sqrt (ssK ex a i)) (Ideal.sqrt (ssK ex b i)) (Ideal.sqrt (ssK ex c i))) (Ideal.sqrt (ssK ex c i))

/-- The kernel program's result. -/
def resK (ex a b c : SBD.Idx → EReal) (idx : SB.Idx → BitVec 32) : EReal :=
  Ideal.div ((∑ i : Fin 4096, rowK ex a b c idx i) - c4096) c8192

/-- The three choices by number. -/
def choice (a b c : SBD.Idx → EReal) : Fin 3 → SBD.Idx → EReal
  | 0 => a
  | 1 => b
  | 2 => c

/-- The reference's positive row: the labelled choice's lanes. -/
def posR (a b c : SBD.Idx → EReal) (idx : SB.Idx → BitVec 32) : SBD.Idx → EReal :=
  fun p => pick (idx (ix1 (p 0))) (a p) (b p) (c p)

/-- The reference's term for row i and choice k: zero at the labelled choice. -/
def termR (ex a b c : SBD.Idx → EReal) (idx : SB.Idx → BitVec 32) (i : Fin 4096) (k : Fin 3) : EReal :=
  if BitVec.ofNat 32 k.val ≠ idx (ix1 i) then
    hinge (Ideal.sqrt (ssR ex (posR a b c idx) i)) (Ideal.sqrt (ssR ex (choice a b c k) i))
  else 0

/-- The reference program's result. -/
def resR (ex a b c : SBD.Idx → EReal) (idx : SB.Idx → BitVec 32) : EReal :=
  Ideal.div (∑ i : Fin 4096, ∑ k : Fin 3, termR ex a b c idx i k) c8192

/-- Every entry of an array is a real number. -/
def Finite (x : SBD.Idx → EReal) : Prop := ∀ p, ∃ r : ℝ, x p = (r : EReal)

/-- Every label is 0, 1 or 2. -/
def Labels (idx : SB.Idx → BitVec 32) : Prop := ∀ i : Fin 4096, idx (ix1 i) = 0#32 ∨ idx (ix1 i) = 1#32 ∨ idx (ix1 i) = 2#32

end Cert.Triplet

end
-- ==== Proof.KDefs.lean ====
/-
  The kernel's order of summation, spelt out.  The grid walks, for each of the two cores, four row blocks of 512 rows,
  and for each row block two chunks of 1024 lanes; point n of the sixteen is core n / 8, row block (n / 2) of the eight,
  chunk n % 2.  A row's squared distance is gathered chunk by chunk; at a row block's second chunk the block's 512
  margin terms are summed and added to the core's running total, which the core's first point resets to zero and the
  core's last point writes to entry (8 * core, 0) of the 16 x 128 result array, every other entry of that block zero.
-/
import proofs.«424818_j9096740733656_3_alg».proof.Proof.Spec

noncomputable section

open scoped BigOperators

namespace Cert.Triplet

open Idealize.ShloMosaic Idealize.ShloMosaic.ValueIdx

/-- Lane q of chunk d, and row r of row block bk. -/
def lane (d : Fin 2) (q : Fin 1024) : Fin 2048 := ⟨1024 * d.val + q.val, by have := d.isLt; have := q.isLt; omega⟩
def rowOf (bk : Fin 8) (r : Fin 512) : Fin 4096 := ⟨512 * bk.val + r.val, by have := bk.isLt; have := r.isLt; omega⟩

/-- One chunk's share of a row's squared distance to a choice. -/
def chunkSS (ex k : SBD.Idx → EReal) (i : Fin 4096) (d : Fin 2) : EReal :=
  ∑ q : Fin 1024, devK (ex (ix2 i (lane d q))) (k (ix2 i (lane d q))) * devK (ex (ix2 i (lane d q))) (k (ix2 i (lane d q)))

/-- The two chunks together. -/
def ss2 (ex k : SBD.Idx → EReal) (i : Fin 4096) : EReal := chunkSS ex k i 0 + chunkSS ex k i 1

/-- A row's three margin terms from its label and its three squared distances. -/
def rowTerm (w : BitVec 32) (sa sb sc : EReal) : EReal :=
  (hinge (pick w (Ideal.sqrt sa) (Ideal.sqrt sb) (Ideal.sqrt sc)) (Ideal.sqrt sa)
    + hinge (pick w (Ideal.sqrt sa) (Ideal.sqrt sb) (Ideal.sqrt sc)) (Ideal.sqrt sb))
    + hinge (pick w (Ideal.sqrt sa) (Ideal.sqrt sb) (Ideal.sqrt sc)) (Ideal.sqrt sc)

/-- A row block's 512 rows summed. -/
def blockSum (ex a b c : SBD.Idx → EReal) (idx : SB.Idx → BitVec 32) (bk : Fin 8) : EReal :=
  ∑ r : Fin 512, rowTerm (idx (ix1 (rowOf bk r))) (ss2 ex a (rowOf bk r)) (ss2 ex b (rowOf bk r)) (ss2 ex c (rowOf bk r))

/-- The row block point n works on. -/
def blockOf (n : ℕ) : Fin 8 := ⟨(n / 2) % 8, Nat.mod_lt _ (by decide)⟩

/-- The running total after point n: zero at a core's first point, unchanged at a first chunk, the row block's sum
    added at a second chunk. -/
def accAfter (ex a b c : SBD.Idx → EReal) (idx : SB.Idx → BitVec 32) : ℕ → EReal
  | 0 => 0
  | n + 1 =>
    if (n + 1) % 8 = 0 then 0
    else if (n + 1) % 2 = 0 then accAfter ex a b c idx n
    else accAfter ex a b c idx n + blockSum ex a b c idx (blockOf (n + 1))

/-- The 16 x 128 result array: a core's total at entry (8 * core, 0), zero elsewhere. -/
def outG (ex a b c : SBD.Idx → EReal) (idx : SB.Idx → BitVec 32) : (⟨2, ![16, 128]⟩ : Shape).Idx → EReal :=
  fun p => if (p 0).val % 8 = 0 ∧ (p 1).val = 0 then accAfter ex a b c idx (8 * ((p 0).val / 8) + 7) else 0

end Cert.Triplet

end
-- ==== Proof.Blocks.lean ====
/-
  The windows' blocks read at an index.  Point t of the grid works on row block (t / 2) and lane chunk (t % 2): entry
  (p, q) of an embedding window's block is entry (512 * (t / 2) + p, 1024 * (t % 2) + q) of its array, and entry (p, 0)
  of the labels' window is label 512 * (t / 2) + p, the 4096 x 1 array the region finds being the label vector reshaped.
-/
import proofs.«424818_j9096740733656_3_alg».proof.Proof.Gen.KernelIdeal.Frame
import proofs.«424818_j9096740733656_3_alg».proof.Proof.KDefs
import Idealize.ShloMosaic.Lib.Pipeline.Value
import Idealize.ShloMosaic.Lib.StableHlo.Run

noncomputable section
open Idealize.ShloMosaic Idealize.ShloMosaic.TcCoe Idealize.SL.Sem Idealize.ShloMosaic.ValueIdx
open Idealize.ShloMosaic.Pipeline (Dat)

namespace Cert.KernelIdeal.Pieces
open Cert.KernelIdeal Cert.KernelIdeal.Gen
open Cert.Triplet (rowOf lane blockOf)
variable {F : FTy → Type} [FloatOps F]
variable (m : (ℓ : Loc nD τ sig) → Buf (Elt F) ℓ)

/-- The point's five input blocks, at their literal shapes: the labels' column, then ex, a, b, c. -/
abbrev blk0 (c : Dev nD) (t : Fin cfg0.N) : Vec F S512x1 .i32 := iblk m c 0 t
abbrev blk1 (c : Dev nD) (t : Fin cfg0.N) : Vec F S512x1024 .f32 := iblk m c 1 t
abbrev blk2 (c : Dev nD) (t : Fin cfg0.N) : Vec F S512x1024 .f32 := iblk m c 2 t
abbrev blk3 (c : Dev nD) (t : Fin cfg0.N) : Vec F S512x1024 .f32 := iblk m c 3 t
abbrev blk4 (c : Dev nD) (t : Fin cfg0.N) : Vec F S512x1024 .f32 := iblk m c 4 t

/-- What the point before left (at the first point: junk nothing reads). -/
abbrev prev (c : Dev nD) (t : Fin cfg0.N) : Vec F S8x128 .f32 × Vec F S1x1 .f32 × Vec F S512x1 .f32 × Vec F S512x1 .f32 × Vec F S512x1 .f32 :=
  outsAt0 m c (t.val - 1) (Nat.lt_of_le_of_lt (Nat.sub_le _ _) t.isLt)

/-- The chunk a point works on. -/
def chunkOf (n : ℕ) : Fin 2 := ⟨n % 2, Nat.mod_lt _ (by decide)⟩

/-- The windows' block indices over the grid: row block t / 2, lane chunk t % 2 (column 0 for the labels). -/
theorem idx_facts : ∀ t : Fin cfg0.N,
    win0_0.index t 0 = t.val / 2 ∧ win0_0.index t 1 = 0
    ∧ win0_1.index t 0 = t.val / 2 ∧ win0_1.index t 1 = t.val % 2
    ∧ win0_2.index t 0 = t.val / 2 ∧ win0_2.index t 1 = t.val % 2
    ∧ win0_3.index t 0 = t.val / 2 ∧ win0_3.index t 1 = t.val % 2
    ∧ win0_4.index t 0 = t.val / 2 ∧ win0_4.index t 1 = t.val % 2 :=
  (by decide +kernel : ∀ t : Fin grid0.N, _)

theorem blk1_apply (c : Dev nD) (t : Fin cfg0.N) (p : Fin 512) (q : Fin 1024) :
    blk1 m c t (ix2 p q) = m ((c : Thread nD τ).loc main_arg0) (ix2 (rowOf (blockOf t.val) p) (lane (chunkOf t.val) q)) := by
  have hN : t.val < 16 := lt_of_lt_of_eq t.isLt (show cfg0.N = 16 from N_0)
  obtain ⟨_, _, e10, e11, e20, e21, e30, e31, e40, e41⟩ := idx_facts t
  show iblk m c 1 t (ix2 p q) = _
  unfold iblk
  rw [View.read_apply, ← V_main_arg0 m c]
  show V m c main_arg0 _ = V m c main_arg0 _
  congr 1
  funext a
  apply Fin.ext
  match a with
  | ⟨0, _⟩ => show win0_1.index t 0 * 512 + 1 * p.val = 512 * ((t.val / 2) % 8) + p.val; rw [e10]; omega
  | ⟨1, _⟩ => show win0_1.index t 1 * 1024 + 1 * q.val = 1024 * (t.val % 2) + q.val; rw [e11]; omega

theorem blk2_apply (c : Dev nD) (t : Fin cfg0.N) (p : Fin 512) (q : Fin 1024) :
    blk2 m c t (ix2 p q) = m ((c : Thread nD τ).loc main_arg1) (ix2 (rowOf (blockOf t.val) p) (lane (chunkOf t.val) q)) := by
  have hN : t.val < 16 := lt_of_lt_of_eq t.isLt (show cfg0.N = 16 from N_0)
  obtain ⟨_, _, e10, e11, e20, e21, e30, e31, e40, e41⟩ := idx_facts t
  show iblk m c 2 t (ix2 p q) = _
  unfold iblk
  rw [View.read_apply, ← V_main_arg1 m c]
  show V m c main_arg1 _ = V m c main_arg1 _
  congr 1
  funext a
  apply Fin.ext
  match a with
  | ⟨0, _⟩ => show win0_2.index t 0 * 512 + 1 * p.val = 512 * ((t.val / 2) % 8) + p.val; rw [e20]; omega
  | ⟨1, _⟩ => show win0_2.index t 1 * 1024 + 1 * q.val = 1024 * (t.val % 2) + q.val; rw [e21]; omega

theorem blk3_apply (c : Dev nD) (t : Fin cfg0.N) (p : Fin 512) (q : Fin 1024) :
    blk3 m c t (ix2 p q) = m ((c : Thread nD τ).loc main_arg2) (ix2 (rowOf (blockOf t.val) p) (lane (chunkOf t.val) q)) := by
  have hN : t.val < 16 := lt_of_lt_of_eq t.isLt (show cfg0.N = 16 from N_0)
  obtain ⟨_, _, e10, e11, e20, e21, e30, e31, e40, e41⟩ := idx_facts t
  show iblk m c 3 t (ix2 p q) = _
  unfold iblk
  rw [View.read_apply, ← V_main_arg2 m c]
  show V m c main_arg2 _ = V m c main_arg2 _
  congr 1
  funext a
  apply Fin.ext
  match a with
  | ⟨0, _⟩ => show win0_3.index t 0 * 512 + 1 * p.val = 512 * ((t.val / 2) % 8) + p.val; rw [e30]; omega
  | ⟨1, _⟩ => show win0_3.index t 1 * 1024 + 1 * q.val = 1024 * (t.val % 2) + q.val; rw [e31]; omega

theorem blk4_apply (c : Dev nD) (t : Fin cfg0.N) (p : Fin 512) (q : Fin 1024) :
    blk4 m c t (ix2 p q) = m ((c : Thread nD τ).loc main_arg3) (ix2 (rowOf (blockOf t.val) p) (lane (chunkOf t.val) q)) := by
  have hN : t.val < 16 := lt_of_lt_of_eq t.isLt (show cfg0.N = 16 from N_0)
  obtain ⟨_, _, e10, e11, e20, e21, e30, e31, e40, e41⟩ := idx_facts t
  show iblk m c 4 t (ix2 p q) = _
  unfold iblk
  rw [View.read_apply, ← V_main_arg3 m c]
  show V m c main_arg3 _ = V m c main_arg3 _
  congr 1
  funext a
  apply Fin.ext
  match a with
  | ⟨0, _⟩ => show win0_4.index t 0 * 512 + 1 * p.val = 512 * ((t.val / 2) % 8) + p.val; rw [e40]; omega
  | ⟨1, _⟩ => show win0_4.index t 1 * 1024 + 1 * q.val = 1024 * (t.val % 2) + q.val; rw [e41]; omega

/-- The 4096 x 1 array the region finds is the label vector reshaped. -/
theorem V_labels (c : Dev nD) (i : Fin 4096) :
    V m c main_v0 (ix2 i (0 : Fin 1)) = m ((c : Thread nD τ).loc main_arg4) (ix1 i) := by
  have e : (V m c main_v0 : S4096x1.Idx → Elt F .i32) = shapeCast S4096x1 (m ((c : Thread nD τ).loc main_arg4)) shapeCasts_S4096_S4096x1 := by
    show StableHlo.after hostOps0 (fun b => m (c, b)) (Proc.devRef .tc main_v0) = _
    after_results
    rfl
  rw [e]
  refine shapeCast_apply _ _ (ix2 i (0 : Fin 1)) (ix1 i) ?_
  rw [Shape.rowMajor_val_one, Shape.rowMajor_val_two]
  show i.val = i.val * 1 + 0
  omega

theorem blk0_apply (c : Dev nD) (t : Fin cfg0.N) (p : Fin 512) :
    blk0 m c t (ix2 p (0 : Fin 1)) = m ((c : Thread nD τ).loc main_arg4) (ix1 (rowOf (blockOf t.val) p)) := by
  have hN : t.val < 16 := lt_of_lt_of_eq t.isLt (show cfg0.N = 16 from N_0)
  obtain ⟨e00, e01, _⟩ := idx_facts t
  show iblk m c 0 t (ix2 p (0 : Fin 1)) = _
  unfold iblk
  rw [View.read_apply, ← V_labels m c]
  show V m c main_v0 _ = V m c main_v0 _
  congr 1
  funext a
  apply Fin.ext
  match a with
  | ⟨0, _⟩ => show win0_0.index t 0 * 512 + 1 * p.val = 512 * ((t.val / 2) % 8) + p.val; rw [e00]; omega
  | ⟨1, _⟩ => show win0_0.index t 1 * 1 + 1 * 0 = 0; rw [e01]

end Cert.KernelIdeal.Pieces
end
-- ==== Proof.KStep.lean ====
/-
  The carried contents after a grid point, component by component, in each of the four control cases: the running
  total, the three squared-distance columns and (at a core's last point) the output block, as the body's payloads of the
  point's input blocks and of the contents the point before left.
-/
import proofs.«424818_j9096740733656_3_alg».proof.Proof.Pieces
import proofs.«424818_j9096740733656_3_alg».proof.Proof.Blocks

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]
variable (m : (ℓ : Loc nD τ sig) → Buf (Elt F) ℓ)

theorem accA (c : Dev nD) (t : Fin cfg0.N) (h0 : t.val % 8 = 0) (h1 : t.val % 2 = 0) (h2 : ¬t.val % 2 = 1) (h3 : ¬t.val % 8 = 7) :
    (outsAt0 m c t.val t.isLt).2.1 = k0_pay5 := by
  rw [outsAt0_A m c t h0 h1 h2 h3]
  dsimp only
  exact sA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t)

theorem saA (c : Dev nD) (t : Fin cfg0.N) (h0 : t.val % 8 = 0) (h1 : t.val % 2 = 0) (h2 : ¬t.val % 2 = 1) (h3 : ¬t.val % 8 = 7) :
    (outsAt0 m c t.val t.isLt).2.2.1 = k0_pay10 (blk1 m c t) (blk2 m c t) k0_pay6 := by
  rw [outsAt0_A m c t h0 h1 h2 h3]
  dsimp only
  exact sA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t)

theorem sbA (c : Dev nD) (t : Fin cfg0.N) (h0 : t.val % 8 = 0) (h1 : t.val % 2 = 0) (h2 : ¬t.val % 2 = 1) (h3 : ¬t.val % 8 = 7) :
    (outsAt0 m c t.val t.isLt).2.2.2.1 = k0_pay11 (blk1 m c t) (blk3 m c t) k0_pay7 := by
  rw [outsAt0_A m c t h0 h1 h2 h3]
  dsimp only
  exact sA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t)

theorem scA (c : Dev nD) (t : Fin cfg0.N) (h0 : t.val % 8 = 0) (h1 : t.val % 2 = 0) (h2 : ¬t.val % 2 = 1) (h3 : ¬t.val % 8 = 7) :
    (outsAt0 m c t.val t.isLt).2.2.2.2 = k0_pay1 (k0_pay9 (blk1 m c t)) (blk4 m c t) k0_pay8 := by
  rw [outsAt0_A m c t h0 h1 h2 h3]
  dsimp only
  exact sA3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t)

theorem accC (c : Dev nD) (t : Fin cfg0.N) (h0 : ¬t.val % 8 = 0) (h1 : t.val % 2 = 0) (h2 : ¬t.val % 2 = 1) (h3 : ¬t.val % 8 = 7) :
    (outsAt0 m c t.val t.isLt).2.1 = (prev m c t).2.1 := by
  rw [outsAt0_C m c t h0 h1 h2 h3]
  dsimp only
  rfl

theorem saC (c : Dev nD) (t : Fin cfg0.N) (h0 : ¬t.val % 8 = 0) (h1 : t.val % 2 = 0) (h2 : ¬t.val % 2 = 1) (h3 : ¬t.val % 8 = 7) :
    (outsAt0 m c t.val t.isLt).2.2.1 = k0_pay10 (blk1 m c t) (blk2 m c t) k0_pay6 := by
  rw [outsAt0_C m c t h0 h1 h2 h3]
  dsimp only
  exact sC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.1

theorem sbC (c : Dev nD) (t : Fin cfg0.N) (h0 : ¬t.val % 8 = 0) (h1 : t.val % 2 = 0) (h2 : ¬t.val % 2 = 1) (h3 : ¬t.val % 8 = 7) :
    (outsAt0 m c t.val t.isLt).2.2.2.1 = k0_pay11 (blk1 m c t) (blk3 m c t) k0_pay7 := by
  rw [outsAt0_C m c t h0 h1 h2 h3]
  dsimp only
  exact sC2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.1

theorem scC (c : Dev nD) (t : Fin cfg0.N) (h0 : ¬t.val % 8 = 0) (h1 : t.val % 2 = 0) (h2 : ¬t.val % 2 = 1) (h3 : ¬t.val % 8 = 7) :
    (outsAt0 m c t.val t.isLt).2.2.2.2 = k0_pay1 (k0_pay9 (blk1 m c t)) (blk4 m c t) k0_pay8 := by
  rw [outsAt0_C m c t h0 h1 h2 h3]
  dsimp only
  exact sC3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.1

theorem accB (c : Dev nD) (t : Fin cfg0.N) (h0 : ¬t.val % 8 = 0) (h1 : ¬t.val % 2 = 0) (h2 : t.val % 2 = 1) (h3 : ¬t.val % 8 = 7) :
    (outsAt0 m c t.val t.isLt).2.1 = k0_pay2 (k0_pay4 (blk0 m c t) (k0_pay10 (blk1 m c t) (blk2 m c t) (prev m c t).2.2.1) (k0_pay11 (blk1 m c t) (blk3 m c t) (prev m c t).2.2.2.1) (k0_pay1 (k0_pay9 (blk1 m c t)) (blk4 m c t) (prev m c t).2.2.2.2) (prev m c t).2.1) := by
  rw [outsAt0_B m c t h0 h1 h2 h3]
  dsimp only
  exact sB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem saB (c : Dev nD) (t : Fin cfg0.N) (h0 : ¬t.val % 8 = 0) (h1 : ¬t.val % 2 = 0) (h2 : t.val % 2 = 1) (h3 : ¬t.val % 8 = 7) :
    (outsAt0 m c t.val t.isLt).2.2.1 = k0_pay10 (blk1 m c t) (blk2 m c t) (prev m c t).2.2.1 := by
  rw [outsAt0_B m c t h0 h1 h2 h3]
  dsimp only
  exact sB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem sbB (c : Dev nD) (t : Fin cfg0.N) (h0 : ¬t.val % 8 = 0) (h1 : ¬t.val % 2 = 0) (h2 : t.val % 2 = 1) (h3 : ¬t.val % 8 = 7) :
    (outsAt0 m c t.val t.isLt).2.2.2.1 = k0_pay11 (blk1 m c t) (blk3 m c t) (prev m c t).2.2.2.1 := by
  rw [outsAt0_B m c t h0 h1 h2 h3]
  dsimp only
  exact sB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem scB (c : Dev nD) (t : Fin cfg0.N) (h0 : ¬t.val % 8 = 0) (h1 : ¬t.val % 2 = 0) (h2 : t.val % 2 = 1) (h3 : ¬t.val % 8 = 7) :
    (outsAt0 m c t.val t.isLt).2.2.2.2 = k0_pay1 (k0_pay9 (blk1 m c t)) (blk4 m c t) (prev m c t).2.2.2.2 := by
  rw [outsAt0_B m c t h0 h1 h2 h3]
  dsimp only
  exact sB3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem accD (c : Dev nD) (t : Fin cfg0.N) (h0 : ¬t.val % 8 = 0) (h1 : ¬t.val % 2 = 0) (h2 : t.val % 2 = 1) (h3 : t.val % 8 = 7) :
    (outsAt0 m c t.val t.isLt).2.1 = k0_pay2 (k0_pay4 (blk0 m c t) (k0_pay10 (blk1 m c t) (blk2 m c t) (prev m c t).2.2.1) (k0_pay11 (blk1 m c t) (blk3 m c t) (prev m c t).2.2.2.1) (k0_pay1 (k0_pay9 (blk1 m c t)) (blk4 m c t) (prev m c t).2.2.2.2) (prev m c t).2.1) := by
  rw [outsAt0_D m c t h0 h1 h2 h3]
  dsimp only
  exact sD0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem saD (c : Dev nD) (t : Fin cfg0.N) (h0 : ¬t.val % 8 = 0) (h1 : ¬t.val % 2 = 0) (h2 : t.val % 2 = 1) (h3 : t.val % 8 = 7) :
    (outsAt0 m c t.val t.isLt).2.2.1 = k0_pay10 (blk1 m c t) (blk2 m c t) (prev m c t).2.2.1 := by
  rw [outsAt0_D m c t h0 h1 h2 h3]
  dsimp only
  exact sD1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem sbD (c : Dev nD) (t : Fin cfg0.N) (h0 : ¬t.val % 8 = 0) (h1 : ¬t.val % 2 = 0) (h2 : t.val % 2 = 1) (h3 : t.val % 8 = 7) :
    (outsAt0 m c t.val t.isLt).2.2.2.1 = k0_pay11 (blk1 m c t) (blk3 m c t) (prev m c t).2.2.2.1 := by
  rw [outsAt0_D m c t h0 h1 h2 h3]
  dsimp only
  exact sD2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem scD (c : Dev nD) (t : Fin cfg0.N) (h0 : ¬t.val % 8 = 0) (h1 : ¬t.val % 2 = 0) (h2 : t.val % 2 = 1) (h3 : t.val % 8 = 7) :
    (outsAt0 m c t.val t.isLt).2.2.2.2 = k0_pay1 (k0_pay9 (blk1 m c t)) (blk4 m c t) (prev m c t).2.2.2.2 := by
  rw [outsAt0_D m c t h0 h1 h2 h3]
  dsimp only
  exact sD3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem outD (c : Dev nD) (t : Fin cfg0.N) (h0 : ¬t.val % 8 = 0) (h1 : ¬t.val % 2 = 0) (h2 : t.val % 2 = 1) (h3 : t.val % 8 = 7) :
    (outsAt0 m c t.val t.isLt).1 = k0_pay3 (k0_pay2 (k0_pay4 (blk0 m c t) (k0_pay10 (blk1 m c t) (blk2 m c t) (prev m c t).2.2.1) (k0_pay11 (blk1 m c t) (blk3 m c t) (prev m c t).2.2.2.1) (k0_pay1 (k0_pay9 (blk1 m c t)) (blk4 m c t) (prev m c t).2.2.2.2) (prev m c t).2.1)) := by
  rw [outsAt0_D m c t h0 h1 h2 h3]
  dsimp only
  exact oD5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Pieces
end
-- ==== Proof.Payloads.lean ====
/-
  The kernel body's arithmetic read at an index, over the extended reals: a chunk's squared deviations added to the
  running squared distance, the row block's margin terms summed into the running total, the total placed at entry
  (0, 0) of an 8 x 128 block of zeros, and the resets to zero.
-/
import proofs.«424818_j9096740733656_3_alg».proof.Proof.Gen.KernelIdeal.Skeleton
import proofs.«424818_j9096740733656_3_alg».proof.Proof.KDefs
import Idealize.ShloMosaic.PureOps.Ideal.Laws
import Idealize.ShloMosaic.Lib.Pipeline.Value
import Idealize.ShloMosaic.Lib.ValueLayout

noncomputable section

open scoped BigOperators

namespace Cert.Triplet

open Idealize.ShloMosaic Idealize.ShloMosaic.ValueIdx
open Cert.KernelIdeal Cert.KernelIdeal.Gen

/-- A column: a vector of length a cast to an a x 1 matrix reads, at (i, u), the vector at i. -/
private theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over a row's 1024 lanes. -/
private theorem laneSum_apply (src : FVec Ideal S512x1024 .f32) (h : S512x1024.Reduces [1] S512)
    (hφ : FKind.Formats .f32) (hacc : (0x00000000#32 : BitVec 32) = 0x00000000#32) (r : Fin 512) :
    multiReduction .add [1] S512 src 0x00000000#32 h hφ hacc (ix1 r) = ∑ q : Fin 1024, src (ix2 r q) := by
  refine (Ideal.multiReduction_add_single src 0x00000000#32 h hφ hacc (ix1 r)).trans ?_
  refine Finset.sum_congr rfl fun q _ => congrArg src ?_
  funext a
  match a with
  | ⟨0, _⟩ => exact Fin.ext rfl
  | ⟨1, _⟩ => exact Fin.ext rfl

/-- The word of the float zero is the extended real zero. -/
private theorem zero_word : (Scalar.ofBits (F := Ideal) .f32 0x00000000#32 : EReal) = 0 := Ideal.ofBits_zero_f32

/-- One chunk, for any minuend array: the row's 1024 squared differences summed and added to what the row held. -/
private theorem chunk_apply (v e : Vec Ideal S512x1024 .f32) (s : Vec Ideal S512x1 .f32) (r : Fin 512) :
    k0_pay1 (F := Ideal) v e s (ix2 r (0 : Fin 1))
      = s (ix2 r (0 : Fin 1)) + ∑ q : Fin 1024, (v (ix2 r q) - e (ix2 r q)) * (v (ix2 r q) - e (ix2 r q)) := by
  unfold k0_pay1
  rw [shapeCast_self]
  refine (addf_apply _ _ _).trans ?_
  refine congrArg (s (ix2 r (0 : Fin 1)) + ·) ?_
  refine (shapeCast_col_apply _ _ r (0 : Fin 1)).trans ?_
  exact laneSum_apply _ _ _ _ r

/-- The offset sum at an index: the element plus the small constant. -/
private theorem pay9_apply (x : Vec Ideal S512x1024 .f32) (r : Fin 512) (q : Fin 1024) :
    k0_pay9 (F := Ideal) x (ix2 r q) = x (ix2 r q) + eps := rfl

/-- A chunk's squared deviations of row r added to what the row had gathered (choice a's accumulation). -/
theorem pay10_apply (x e : Vec Ideal S512x1024 .f32) (s : Vec Ideal S512x1 .f32) (r : Fin 512) :
    k0_pay10 (F := Ideal) x e s (ix2 r (0 : Fin 1))
      = s (ix2 r (0 : Fin 1)) + ∑ q : Fin 1024, devK (x (ix2 r q)) (e (ix2 r q)) * devK (x (ix2 r q)) (e (ix2 r q)) :=
  chunk_apply (k0_pay9 (F := Ideal) x) e s r

/-- The same for choice b. -/
theorem pay11_apply (x e : Vec Ideal S512x1024 .f32) (s : Vec Ideal S512x1 .f32) (r : Fin 512) :
    k0_pay11 (F := Ideal) x e s (ix2 r (0 : Fin 1))
      = s (ix2 r (0 : Fin 1)) + ∑ q : Fin 1024, devK (x (ix2 r q)) (e (ix2 r q)) * devK (x (ix2 r q)) (e (ix2 r q)) :=
  chunk_apply (k0_pay9 (F := Ideal) x) e s r

/-- The same for choice c (its deviation takes the offset sum as a value computed once). -/
theorem pay1_apply (x e : Vec Ideal S512x1024 .f32) (s : Vec Ideal S512x1 .f32) (r : Fin 512) :
    k0_pay1 (F := Ideal) (k0_pay9 (F := Ideal) x) e s (ix2 r (0 : Fin 1))
      = s (ix2 r (0 : Fin 1)) + ∑ q : Fin 1024, devK (x (ix2 r q)) (e (ix2 r q)) * devK (x (ix2 r q)) (e (ix2 r q)) :=
  chunk_apply (k0_pay9 (F := Ideal) x) e s r

/-- A 32-bit equality test gives the bit 1 exactly when the words are equal. -/
private theorem cmpi_eq_one_iff (x y : BitVec 32) : IntOp.cmpi .eq x y = 1#1 ↔ x = y := by
  show BitVec.ofBool (x == y) = 1#1 ↔ x = y
  by_cases h : x = y
  · subst h; simp
  · have hb : (x == y) = false := beq_eq_false_iff_ne.mpr h
    rw [hb]
    exact ⟨fun h' => absurd h' (by decide), fun h' => absurd h' h⟩

/-- So a select on it is the `if` on the equality. -/
private theorem select_cmpi_eq {α : Type} (x y : BitVec 32) (a b : α) :
    Scalar.select (IntOp.cmpi .eq x y) a b = if x = y then a else b := by
  by_cases h : x = y
  · rw [if_pos h, (cmpi_eq_one_iff x y).mpr h]; exact select_one a b
  · rw [if_neg h, eq_zero_of_ne_one (fun h' => h ((cmpi_eq_one_iff x y).mp h'))]; exact select_zero a b

/-- The 512 rows of a 1 x 512 x 1 block, by row. -/
private def rowEquiv : Fin 512 ≃ S1x512x1.Idx where
  toFun r := ix3 (0 : Fin 1) r (0 : Fin 1)
  invFun i := i 1
  left_inv _ := rfl
  right_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)

/-- The sum over every entry of a 512 x 1 column viewed as a 1 x 512 x 1 block is the sum over its rows. -/
private theorem total_apply (V : FVec Ideal S512x1 .f32) (hc : S512x1.ShapeCasts S1x512x1)
    (hr : S1x512x1.Reduces [1, 2] S1) (hφ : FKind.Formats .f32)
    (hacc : (0x00000000#32 : BitVec 32) = 0x00000000#32) (j : S1.Idx) :
    multiReduction .add [1, 2] S1 (shapeCast S1x512x1 V hc) 0x00000000#32 hr hφ hacc j
      = ∑ r : Fin 512, V (ix2 r (0 : Fin 1)) := by
  refine (Ideal.multiReduction_add_total _ 0x00000000#32 hr (fun b => by match b with | ⟨0, _⟩ => rfl) hφ hacc j).trans ?_
  refine (Equiv.sum_comp rowEquiv _).symm.trans ?_
  exact Finset.sum_congr rfl fun r _ => shapeCast_ab_1ab_apply V hc (0 : Fin 1) r (0 : Fin 1)

/-- One row's three margin terms, as the selects and maxima compute them, are the row term. -/
private theorem rowTerm_eq (x : BitVec 32) (a b c : EReal) :
    (max ((Scalar.select (IntOp.cmpi .eq x 0#32) (Ideal.sqrt a)
              (Scalar.select (IntOp.cmpi .eq x 1#32) (Ideal.sqrt b) (Ideal.sqrt c)) - Ideal.sqrt a)
            + Ideal.ofBits .f32 0x3F800000#32) (Ideal.ofBits .f32 0x00000000#32)
        + max ((Scalar.select (IntOp.cmpi .eq x 0#32) (Ideal.sqrt a)
              (Scalar.select (IntOp.cmpi .eq x 1#32) (Ideal.sqrt b) (Ideal.sqrt c)) - Ideal.sqrt b)
            + Ideal.ofBits .f32 0x3F800000#32) (Ideal.ofBits .f32 0x00000000#32))
      + max ((Scalar.select (IntOp.cmpi .eq x 0#32) (Ideal.sqrt a)
              (Scalar.select (IntOp.cmpi .eq x 1#32) (Ideal.sqrt b) (Ideal.sqrt c)) - Ideal.sqrt c)
            + Ideal.ofBits .f32 0x3F800000#32) (Ideal.ofBits .f32 0x00000000#32)
      = rowTerm x a b c := by
  rw [Ideal.ofBits_zero_f32, select_cmpi_eq, select_cmpi_eq]
  rfl

/-- The row block's 512 rows of margin terms added to the running total. -/
theorem pay4_apply (w : Vec Ideal S512x1 .i32) (sa sb sc : Vec Ideal S512x1 .f32) (acc : Vec Ideal S1x1 .f32) :
    k0_pay2 (F := Ideal) (k0_pay4 (F := Ideal) w sa sb sc acc) (ix2 (0 : Fin 1) (0 : Fin 1))
      = acc (ix2 (0 : Fin 1) (0 : Fin 1))
        + ∑ r : Fin 512, rowTerm (w (ix2 r (0 : Fin 1))) (sa (ix2 r (0 : Fin 1))) (sb (ix2 r (0 : Fin 1))) (sc (ix2 r (0 : Fin 1))) := by
  unfold k0_pay2
  rw [shapeCast_self]
  unfold k0_pay4
  rw [shapeCast_self]
  refine (addf_apply _ _ _).trans ?_
  refine congrArg (acc (ix2 (0 : Fin 1) (0 : Fin 1)) + ·) ?_
  refine (total_apply _ shapeCasts_S512x1_S1x512x1 reduces_S1x512x1_S1 (.inl rfl) rfl _).trans ?_
  refine Finset.sum_congr rfl fun r _ => ?_
  exact rowTerm_eq (w (ix2 r (0 : Fin 1))) (sa (ix2 r (0 : Fin 1))) (sb (ix2 r (0 : Fin 1))) (sc (ix2 r (0 : Fin 1)))

/-- The word of a number below 2 ^ 32 is the zero word exactly when the number is zero. -/
private theorem ofNat_eq_zero_iff (n : ℕ) (hn : n < 2 ^ 32) : BitVec.ofNat 32 n = 0#32 ↔ n = 0 := by
  constructor
  · intro h
    have := congrArg BitVec.toNat h
    simp only [BitVec.toNat_ofNat] at this
    rw [Nat.mod_eq_of_lt hn] at this
    exact this
  · rintro rfl; rfl

/-- "Row number is zero and column number is zero", as a bit. -/
private theorem corner_bit (p q : ℕ) (hp : p < 2 ^ 32) (hq : q < 2 ^ 32) :
    IntOp.andi (IntOp.cmpi .eq (BitVec.ofNat 32 p) 0#32) (IntOp.cmpi .eq (BitVec.ofNat 32 q) 0#32)
      = if p = 0 ∧ q = 0 then 1#1 else 0#1 := by
  by_cases h0 : p = 0
  · by_cases h1 : q = 0
    · subst h0; subst h1; rfl
    · have c2 : IntOp.cmpi .eq (BitVec.ofNat 32 q) 0#32 = 0#1 :=
        eq_zero_of_ne_one fun h => h1 ((ofNat_eq_zero_iff q hq).mp ((cmpi_eq_one_iff _ _).mp h))
      rw [c2, if_neg fun h => h1 h.2]
      exact BitVec.and_zero
  · have c1 : IntOp.cmpi .eq (BitVec.ofNat 32 p) 0#32 = 0#1 :=
      eq_zero_of_ne_one fun h => h0 ((ofNat_eq_zero_iff p hp).mp ((cmpi_eq_one_iff _ _).mp h))
    rw [c1, if_neg fun h => h0 h.1]
    exact BitVec.zero_and

/-- Row p's word in the block of row numbers, and column q's in the block of column numbers. -/
private theorem iota_row (h : S8x128.Iotas .tc 32 [0]) (p : Fin 8) (q : Fin 128) :
    iota .tc S8x128 32 [0] h (ix2 p q) = BitVec.ofNat 32 p.val :=
  iota_single_apply .tc S8x128 32 0 h (ix2 p q)
private theorem iota_col (h : S8x128.Iotas .tc 32 [1]) (p : Fin 8) (q : Fin 128) :
    iota .tc S8x128 32 [1] h (ix2 p q) = BitVec.ofNat 32 q.val :=
  iota_single_apply .tc S8x128 32 1 h (ix2 p q)

/-- The output block: the running total at entry (0, 0), zero elsewhere. -/
theorem pay3_apply (acc : Vec Ideal S1x1 .f32) (p : Fin 8) (q : Fin 128) :
    k0_pay3 (F := Ideal) acc (ix2 p q) = if p.val = 0 ∧ q.val = 0 then acc (ix2 (0 : Fin 1) (0 : Fin 1)) else 0 := by
  unfold k0_pay3
  refine (select_apply _ _ _ (ix2 p q)).trans ?_
  show Scalar.select (IntOp.andi (IntOp.cmpi .eq (iota .tc S8x128 32 [0] iota_S8x128_d0_w32 (ix2 p q)) 0#32)
      (IntOp.cmpi .eq (iota .tc S8x128 32 [1] iota_S8x128_d1_w32 (ix2 p q)) 0#32))
    (acc fun a => ⟨(![0, 0] : Fin 2 → ℕ) a, inpos_S1x1_p0_0 a⟩) (Ideal.ofBits .f32 0x00000000#32) = _
  have hidx : (fun a => ⟨(![0, 0] : Fin 2 → ℕ) a, inpos_S1x1_p0_0 a⟩ : S1x1.Idx) = ix2 (0 : Fin 1) (0 : Fin 1) := by
    funext a
    match a with
    | ⟨0, _⟩ => rfl
    | ⟨1, _⟩ => rfl
  rw [iota_row, iota_col, Ideal.ofBits_zero_f32, hidx,
    corner_bit p.val q.val (by have := p.isLt; omega) (by have := q.isLt; omega)]
  by_cases h : p.val = 0 ∧ q.val = 0
  · rw [if_pos h, if_pos h]; exact select_one _ _
  · rw [if_neg h, if_neg h]; exact select_zero _ _

/-- The resets store zero. -/
theorem pay5_apply : k0_pay5 (F := Ideal) (ix2 (0 : Fin 1) (0 : Fin 1)) = 0 := by
  unfold k0_pay5
  rw [shapeCast_self]
  exact zero_word
theorem pay6_apply (r : Fin 512) : k0_pay6 (F := Ideal) (ix2 r (0 : Fin 1)) = 0 := by
  unfold k0_pay6
  rw [shapeCast_self]
  exact zero_word
theorem pay7_apply (r : Fin 512) : k0_pay7 (F := Ideal) (ix2 r (0 : Fin 1)) = 0 := by
  unfold k0_pay7
  rw [shapeCast_self]
  exact zero_word
theorem pay8_apply (r : Fin 512) : k0_pay8 (F := Ideal) (ix2 r (0 : Fin 1)) = 0 := by
  unfold k0_pay8
  rw [shapeCast_self]
  exact zero_word

end Cert.Triplet

end
-- ==== Proof.KInv.lean ====
/-
  What the carried scratch holds after each grid point, by induction on the point: the running total is the kernel's
  accumulation of the row blocks finished so far on the current core, and each squared-distance column holds, for the
  row block in hand, the first chunk's share after a first chunk and both chunks' after a second.
-/
import proofs.«424818_j9096740733656_3_alg».proof.Proof.KStep
import proofs.«424818_j9096740733656_3_alg».proof.Proof.Payloads

noncomputable section
open scoped BigOperators
open Idealize.ShloMosaic Idealize.ShloMosaic.TcCoe Idealize.SL.Sem Idealize.ShloMosaic.ValueIdx
open Idealize.ShloMosaic.Pipeline (Dat)

namespace Cert.KernelIdeal.Pieces
open Cert.KernelIdeal Cert.KernelIdeal.Gen
open Cert.Triplet
variable (m : (ℓ : Loc nD τ sig) → Buf (Elt Ideal) ℓ)

/-- The argument arrays on core c: the example rows, the three choices, the labels. -/
abbrev aEx (c : Dev nD) : SBD.Idx → EReal := m ((c : Thread nD τ).loc main_arg0)
abbrev aA (c : Dev nD) : SBD.Idx → EReal := m ((c : Thread nD τ).loc main_arg1)
abbrev aB (c : Dev nD) : SBD.Idx → EReal := m ((c : Thread nD τ).loc main_arg2)
abbrev aC (c : Dev nD) : SBD.Idx → EReal := m ((c : Thread nD τ).loc main_arg3)
abbrev aIdx (c : Dev nD) : SB.Idx → BitVec 32 := m ((c : Thread nD τ).loc main_arg4)

/-- A row's gathered squared distance after point n: the first chunk's share, or both. -/
def partSS (ex k : SBD.Idx → EReal) (i : Fin 4096) (n : ℕ) : EReal := if n % 2 = 0 then chunkSS ex k i 0 else ss2 ex k i

/-- The carried contents after point n. -/
structure Inv (c : Dev nD) (n : ℕ) (h : n < cfg0.N) : Prop where
  acc : (outsAt0 m c n h).2.1 (ix2 (0 : Fin 1) (0 : Fin 1)) = accAfter (aEx m c) (aA m c) (aB m c) (aC m c) (aIdx m c) n
  sa : ∀ r : Fin 512, (outsAt0 m c n h).2.2.1 (ix2 r (0 : Fin 1)) = partSS (aEx m c) (aA m c) (rowOf (blockOf n) r) n
  sb : ∀ r : Fin 512, (outsAt0 m c n h).2.2.2.1 (ix2 r (0 : Fin 1)) = partSS (aEx m c) (aB m c) (rowOf (blockOf n) r) n
  sc : ∀ r : Fin 512, (outsAt0 m c n h).2.2.2.2 (ix2 r (0 : Fin 1)) = partSS (aEx m c) (aC m c) (rowOf (blockOf n) r) n

/-- A chunk's squared deviations of block row r against a choice's block are that chunk's share for the row. -/
theorem chunk_sum (c : Dev nD) (t : Fin cfg0.N) (kb : Vec Ideal S512x1024 .f32) (karr : SBD.Idx → EReal)
    (hk : ∀ (p : Fin 512) (q : Fin 1024), kb (ix2 p q) = karr (ix2 (rowOf (blockOf t.val) p) (lane (chunkOf t.val) q))) (r : Fin 512) :
    (∑ q : Fin 1024, devK (blk1 m c t (ix2 r q)) (kb (ix2 r q)) * devK (blk1 m c t (ix2 r q)) (kb (ix2 r q)))
      = chunkSS (aEx m c) karr (rowOf (blockOf t.val) r) (chunkOf t.val) := by
  unfold chunkSS
  refine Finset.sum_congr rfl fun q _ => ?_
  rw [blk1_apply m c t r q, hk r q]

/-- At a first chunk a column that was reset holds the first chunk's share. -/
theorem col_even (c : Dev nD) (t : Fin cfg0.N) (h1 : t.val % 2 = 0) (kb : Vec Ideal S512x1024 .f32) (karr : SBD.Idx → EReal)
    (hk : ∀ (p : Fin 512) (q : Fin 1024), kb (ix2 p q) = karr (ix2 (rowOf (blockOf t.val) p) (lane (chunkOf t.val) q))) (r : Fin 512) :
    (0 : EReal) + (∑ q : Fin 1024, devK (blk1 m c t (ix2 r q)) (kb (ix2 r q)) * devK (blk1 m c t (ix2 r q)) (kb (ix2 r q)))
      = partSS (aEx m c) karr (rowOf (blockOf t.val) r) t.val := by
  have hc : chunkOf t.val = 0 := Fin.ext h1
  rw [zero_add, chunk_sum m c t kb karr hk r, hc]
  unfold partSS
  rw [if_pos h1]

/-- At a second chunk a column holding the first chunk's share holds both. -/
theorem col_odd (c : Dev nD) (t : Fin cfg0.N) (h2 : t.val % 2 = 1) (kb : Vec Ideal S512x1024 .f32) (karr : SBD.Idx → EReal)
    (hk : ∀ (p : Fin 512) (q : Fin 1024), kb (ix2 p q) = karr (ix2 (rowOf (blockOf t.val) p) (lane (chunkOf t.val) q))) (r : Fin 512) :
    partSS (aEx m c) karr (rowOf (blockOf (t.val - 1)) r) (t.val - 1)
        + (∑ q : Fin 1024, devK (blk1 m c t (ix2 r q)) (kb (ix2 r q)) * devK (blk1 m c t (ix2 r q)) (kb (ix2 r q)))
      = partSS (aEx m c) karr (rowOf (blockOf t.val) r) t.val := by
  have hc : chunkOf t.val = 1 := Fin.ext h2
  have hb : blockOf (t.val - 1) = blockOf t.val := Fin.ext (by show ((t.val - 1) / 2) % 8 = (t.val / 2) % 8; omega)
  rw [chunk_sum m c t kb karr hk r, hc, hb]
  unfold partSS
  rw [if_pos (by omega : (t.val - 1) % 2 = 0), if_neg (by omega : ¬t.val % 2 = 0)]
  rfl

/-- The three columns after a first chunk, from the case's column equations. -/
theorem cols_even (c : Dev nD) (t : Fin cfg0.N) (h1 : t.val % 2 = 0)
    (esa : (outsAt0 m c t.val t.isLt).2.2.1 = k0_pay10 (blk1 m c t) (blk2 m c t) (k0_pay6 (F := Ideal)))
    (esb : (outsAt0 m c t.val t.isLt).2.2.2.1 = k0_pay11 (blk1 m c t) (blk3 m c t) (k0_pay7 (F := Ideal)))
    (esc : (outsAt0 m c t.val t.isLt).2.2.2.2 = k0_pay1 (k0_pay9 (blk1 m c t)) (blk4 m c t) (k0_pay8 (F := Ideal))) :
    (∀ r : Fin 512, (outsAt0 m c t.val t.isLt).2.2.1 (ix2 r (0 : Fin 1)) = partSS (aEx m c) (aA m c) (rowOf (blockOf t.val) r) t.val)
    ∧ (∀ r : Fin 512, (outsAt0 m c t.val t.isLt).2.2.2.1 (ix2 r (0 : Fin 1)) = partSS (aEx m c) (aB m c) (rowOf (blockOf t.val) r) t.val)
    ∧ (∀ r : Fin 512, (outsAt0 m c t.val t.isLt).2.2.2.2 (ix2 r (0 : Fin 1)) = partSS (aEx m c) (aC m c) (rowOf (blockOf t.val) r) t.val) := by
  refine ⟨fun r => ?_, fun r => ?_, fun r => ?_⟩
  · rw [esa]
    refine (pay10_apply (blk1 m c t) (blk2 m c t) (k0_pay6 (F := Ideal)) r).trans ?_
    rw [pay6_apply r]
    exact col_even m c t h1 (blk2 m c t) (aA m c) (blk2_apply m c t) r
  · rw [esb]
    refine (pay11_apply (blk1 m c t) (blk3 m c t) (k0_pay7 (F := Ideal)) r).trans ?_
    rw [pay7_apply r]
    exact col_even m c t h1 (blk3 m c t) (aB m c) (blk3_apply m c t) r
  · rw [esc]
    refine (pay1_apply (blk1 m c t) (blk4 m c t) (k0_pay8 (F := Ideal)) r).trans ?_
    rw [pay8_apply r]
    exact col_even m c t h1 (blk4 m c t) (aC m c) (blk4_apply m c t) r

/-- A core's first point. -/
theorem inv_first (c : Dev nD) (t : Fin cfg0.N) (h0 : t.val % 8 = 0) (h1 : t.val % 2 = 0) (h2 : ¬t.val % 2 = 1) (h3 : ¬t.val % 8 = 7) :
    Inv m c t.val t.isLt := by
  obtain ⟨ha, hb, hc⟩ := cols_even m c t h1 (saA m c t h0 h1 h2 h3) (sbA m c t h0 h1 h2 h3) (scA m c t h0 h1 h2 h3)
  refine ⟨?_, ha, hb, hc⟩
  rw [accA m c t h0 h1 h2 h3, pay5_apply]
  obtain ⟨n, hn⟩ := t
  cases n with
  | zero => rfl
  | succ n => exact (if_pos h0).symm

/-- A later row block's first chunk. -/
theorem inv_evenC (c : Dev nD) (t : Fin cfg0.N) (h0 : ¬t.val % 8 = 0) (h1 : t.val % 2 = 0) (h2 : ¬t.val % 2 = 1) (h3 : ¬t.val % 8 = 7)
    (ih : Inv m c (t.val - 1) (Nat.lt_of_le_of_lt (Nat.sub_le _ _) t.isLt)) :
    Inv m c t.val t.isLt := by
  obtain ⟨ha, hb, hc⟩ := cols_even m c t h1 (saC m c t h0 h1 h2 h3) (sbC m c t h0 h1 h2 h3) (scC m c t h0 h1 h2 h3)
  refine ⟨?_, ha, hb, hc⟩
  rw [accC m c t h0 h1 h2 h3]
  refine ih.acc.trans ?_
  obtain ⟨n, hn⟩ := t
  cases n with
  | zero => exact absurd rfl h0
  | succ n => exact ((if_neg h0).trans (if_pos h1)).symm

/-- A second chunk, from the case's equations. -/
theorem inv_odd (c : Dev nD) (t : Fin cfg0.N) (h0 : ¬t.val % 8 = 0) (h1 : ¬t.val % 2 = 0) (h2 : t.val % 2 = 1)
    (eacc : (outsAt0 m c t.val t.isLt).2.1 = k0_pay2 (k0_pay4 (blk0 m c t) (k0_pay10 (blk1 m c t) (blk2 m c t) (prev m c t).2.2.1) (k0_pay11 (blk1 m c t) (blk3 m c t) (prev m c t).2.2.2.1) (k0_pay1 (k0_pay9 (blk1 m c t)) (blk4 m c t) (prev m c t).2.2.2.2) (prev m c t).2.1))
    (esa : (outsAt0 m c t.val t.isLt).2.2.1 = k0_pay10 (blk1 m c t) (blk2 m c t) (prev m c t).2.2.1)
    (esb : (outsAt0 m c t.val t.isLt).2.2.2.1 = k0_pay11 (blk1 m c t) (blk3 m c t) (prev m c t).2.2.2.1)
    (esc : (outsAt0 m c t.val t.isLt).2.2.2.2 = k0_pay1 (k0_pay9 (blk1 m c t)) (blk4 m c t) (prev m c t).2.2.2.2)
    (ih : Inv m c (t.val - 1) (Nat.lt_of_le_of_lt (Nat.sub_le _ _) t.isLt)) :
    Inv m c t.val t.isLt := by
  have ha : ∀ r : Fin 512, k0_pay10 (F := Ideal) (blk1 m c t) (blk2 m c t) (prev m c t).2.2.1 (ix2 r (0 : Fin 1)) = partSS (aEx m c) (aA m c) (rowOf (blockOf t.val) r) t.val := fun r => by
    refine (pay10_apply (blk1 m c t) (blk2 m c t) (prev m c t).2.2.1 r).trans ?_
    rw [show (prev m c t).2.2.1 (ix2 r (0 : Fin 1)) = _ from ih.sa r]
    exact col_odd m c t h2 (blk2 m c t) (aA m c) (blk2_apply m c t) r
  have hb : ∀ r : Fin 512, k0_pay11 (F := Ideal) (blk1 m c t) (blk3 m c t) (prev m c t).2.2.2.1 (ix2 r (0 : Fin 1)) = partSS (aEx m c) (aB m c) (rowOf (blockOf t.val) r) t.val := fun r => by
    refine (pay11_apply (blk1 m c t) (blk3 m c t) (prev m c t).2.2.2.1 r).trans ?_
    rw [show (prev m c t).2.2.2.1 (ix2 r (0 : Fin 1)) = _ from ih.sb r]
    exact col_odd m c t h2 (blk3 m c t) (aB m c) (blk3_apply m c t) r
  have hc : ∀ r : Fin 512, k0_pay1 (F := Ideal) (k0_pay9 (blk1 m c t)) (blk4 m c t) (prev m c t).2.2.2.2 (ix2 r (0 : Fin 1)) = partSS (aEx m c) (aC m c) (rowOf (blockOf t.val) r) t.val := fun r => by
    refine (pay1_apply (blk1 m c t) (blk4 m c t) (prev m c t).2.2.2.2 r).trans ?_
    rw [show (prev m c t).2.2.2.2 (ix2 r (0 : Fin 1)) = _ from ih.sc r]
    exact col_odd m c t h2 (blk4 m c t) (aC m c) (blk4_apply m c t) r
  have hp : ∀ (k : SBD.Idx → EReal) (r : Fin 512), partSS (aEx m c) k (rowOf (blockOf t.val) r) t.val = ss2 (aEx m c) k (rowOf (blockOf t.val) r) := fun k r => by
    unfold partSS; rw [if_neg h1]
  refine ⟨?_, fun r => by rw [esa]; exact ha r, fun r => by rw [esb]; exact hb r, fun r => by rw [esc]; exact hc r⟩
  rw [eacc]
  refine (pay4_apply (blk0 m c t) _ _ _ (prev m c t).2.1).trans ?_
  rw [show (prev m c t).2.1 (ix2 (0 : Fin 1) (0 : Fin 1)) = _ from ih.acc]
  have hsum : (∑ r : Fin 512, rowTerm (blk0 m c t (ix2 r (0 : Fin 1)))
        (k0_pay10 (F := Ideal) (blk1 m c t) (blk2 m c t) (prev m c t).2.2.1 (ix2 r (0 : Fin 1)))
        (k0_pay11 (F := Ideal) (blk1 m c t) (blk3 m c t) (prev m c t).2.2.2.1 (ix2 r (0 : Fin 1)))
        (k0_pay1 (F := Ideal) (k0_pay9 (blk1 m c t)) (blk4 m c t) (prev m c t).2.2.2.2 (ix2 r (0 : Fin 1))))
      = blockSum (aEx m c) (aA m c) (aB m c) (aC m c) (aIdx m c) (blockOf t.val) := by
    unfold blockSum
    refine Finset.sum_congr rfl fun r _ => ?_
    rw [ha r, hb r, hc r, hp, hp, hp, blk0_apply m c t r]
  rw [hsum]
  obtain ⟨n, hn⟩ := t
  cases n with
  | zero => exact absurd rfl h0
  | succ n => exact ((if_neg h0).trans (if_neg h1)).symm

/-- The carried contents after every point. -/
theorem inv (c : Dev nD) : ∀ (n : ℕ) (h : n < cfg0.N), Inv m c n h
  | 0, h => inv_first m c ⟨0, h⟩ rfl rfl (by show ¬(0 : ℕ) % 2 = 1; decide) (by show ¬(0 : ℕ) % 8 = 7; decide)
  | n + 1, h => by
    have hN : n + 1 < 16 := lt_of_lt_of_eq h (show cfg0.N = 16 from N_0)
    have ih : Inv m c ((⟨n + 1, h⟩ : Fin cfg0.N).val - 1) (Nat.lt_of_le_of_lt (Nat.sub_le _ _) (⟨n + 1, h⟩ : Fin cfg0.N).isLt) :=
      inv c n (Nat.lt_of_succ_lt h)
    by_cases h0 : (n + 1) % 8 = 0
    · exact inv_first m c ⟨n + 1, h⟩ h0 (by show (n + 1) % 2 = 0; omega) (by show ¬(n + 1) % 2 = 1; omega) (by show ¬(n + 1) % 8 = 7; omega)
    · by_cases h1 : (n + 1) % 2 = 0
      · exact inv_evenC m c ⟨n + 1, h⟩ h0 h1 (by show ¬(n + 1) % 2 = 1; omega) (by show ¬(n + 1) % 8 = 7; omega) ih
      · have h2 : (n + 1) % 2 = 1 := by omega
        by_cases h3 : (n + 1) % 8 = 7
        · exact inv_odd m c ⟨n + 1, h⟩ h0 h1 h2 (accD m c ⟨n + 1, h⟩ h0 h1 h2 h3) (saD m c ⟨n + 1, h⟩ h0 h1 h2 h3)
            (sbD m c ⟨n + 1, h⟩ h0 h1 h2 h3) (scD m c ⟨n + 1, h⟩ h0 h1 h2 h3) ih
        · exact inv_odd m c ⟨n + 1, h⟩ h0 h1 h2 (accB m c ⟨n + 1, h⟩ h0 h1 h2 h3) (saB m c ⟨n + 1, h⟩ h0 h1 h2 h3)
            (sbB m c ⟨n + 1, h⟩ h0 h1 h2 h3) (scB m c ⟨n + 1, h⟩ h0 h1 h2 h3) ih

end Cert.KernelIdeal.Pieces
end
-- ==== Proof.KSum.lean ====
/-
  The entries of the kernel's 16 x 128 result array add up to the sum of all 4096 rows' margin terms: the two cores'
  totals are the sums of row blocks 0..3 and 4..7, a row block is 512 consecutive rows, and a row's two chunks of 1024
  lanes are its 2048 lanes.
-/
import proofs.«424818_j9096740733656_3_alg».proof.Proof.KDefs
import Mathlib.Algebra.BigOperators.Fin
import Mathlib.Logic.Equiv.Fin.Basic

noncomputable section

open scoped BigOperators

namespace Cert.Triplet

open Idealize.ShloMosaic Idealize.ShloMosaic.ValueIdx

/-- A sum over m * n consecutive positions is the sum over m stretches of n positions each: position n * a + b is
    position b of stretch a. -/
private theorem sum_fin_mul {M : Type*} [AddCommMonoid M] {m n : ℕ} (f : Fin (m * n) → M)
    (g : Fin m → Fin n → Fin (m * n)) (hg : ∀ s t, (g s t).val = n * s.val + t.val) :
    ∑ j, f j = ∑ s : Fin m, ∑ t : Fin n, f (g s t) := by
  have h : ∀ s t, (finProdFinEquiv (s, t) : Fin (m * n)) = g s t := by
    intro s t
    apply Fin.ext
    rw [hg]
    exact Nat.add_comm _ _
  rw [← Equiv.sum_comp (finProdFinEquiv : Fin m × Fin n ≃ Fin (m * n)) f, Fintype.sum_prod_type]
  simp only [h]

/-- The two chunks of a row make the row. -/
theorem ss2_eq_ssK (ex k : SBD.Idx → EReal) (i : Fin 4096) : ss2 ex k i = ssK ex k i := by
  unfold ss2 chunkSS ssK
  refine Eq.symm ?_
  refine (sum_fin_mul (m := 2) (n := 1024)
    (fun j : Fin 2048 => devK (ex (ix2 i j)) (k (ix2 i j)) * devK (ex (ix2 i j)) (k (ix2 i j)))
    lane (fun _ _ => rfl)).trans ?_
  exact Fin.sum_univ_two _

section

variable (ex a b c : SBD.Idx → EReal) (idx : SB.Idx → BitVec 32)

/-- One step of the running total. -/
private theorem accAfter_succ (n : ℕ) :
    accAfter ex a b c idx (n + 1) =
      if (n + 1) % 8 = 0 then 0
      else if (n + 1) % 2 = 0 then accAfter ex a b c idx n
      else accAfter ex a b c idx n + blockSum ex a b c idx (blockOf (n + 1)) := by
  rw [accAfter]

/-- A second chunk that is not a core's first point adds its row block's sum. -/
private theorem accAfter_add (n : ℕ) (h8 : (n + 1) % 8 ≠ 0) (h2 : (n + 1) % 2 ≠ 0) :
    accAfter ex a b c idx (n + 1) = accAfter ex a b c idx n + blockSum ex a b c idx (blockOf (n + 1)) := by
  rw [accAfter_succ, if_neg h8, if_neg h2]

/-- A first chunk that is not a core's first point leaves the total as it is. -/
private theorem accAfter_keep (n : ℕ) (h8 : (n + 1) % 8 ≠ 0) (h2 : (n + 1) % 2 = 0) :
    accAfter ex a b c idx (n + 1) = accAfter ex a b c idx n := by
  rw [accAfter_succ, if_neg h8, if_pos h2]

/-- A core's first point resets the total. -/
private theorem accAfter_reset (n : ℕ) (h8 : (n + 1) % 8 = 0) : accAfter ex a b c idx (n + 1) = 0 := by
  rw [accAfter_succ, if_pos h8]

/-- The first core's total: row blocks 0, 1, 2, 3. -/
private theorem accAfter_7 :
    accAfter ex a b c idx 7 =
      (((0 + blockSum ex a b c idx 0) + blockSum ex a b c idx 1) + blockSum ex a b c idx 2) + blockSum ex a b c idx 3 := by
  have h0 : accAfter ex a b c idx 0 = 0 := by rw [accAfter]
  have h1 : accAfter ex a b c idx 1 = accAfter ex a b c idx 0 + blockSum ex a b c idx (blockOf 1) :=
    accAfter_add ex a b c idx 0 (by decide) (by decide)
  have h2 : accAfter ex a b c idx 2 = accAfter ex a b c idx 1 := accAfter_keep ex a b c idx 1 (by decide) (by decide)
  have h3 : accAfter ex a b c idx 3 = accAfter ex a b c idx 2 + blockSum ex a b c idx (blockOf 3) :=
    accAfter_add ex a b c idx 2 (by decide) (by decide)
  have h4 : accAfter ex a b c idx 4 = accAfter ex a b c idx 3 := accAfter_keep ex a b c idx 3 (by decide) (by decide)
  have h5 : accAfter ex a b c idx 5 = accAfter ex a b c idx 4 + blockSum ex a b c idx (blockOf 5) :=
    accAfter_add ex a b c idx 4 (by decide) (by decide)
  have h6 : accAfter ex a b c idx 6 = accAfter ex a b c idx 5 := accAfter_keep ex a b c idx 5 (by decide) (by decide)
  have h7 : accAfter ex a b c idx 7 = accAfter ex a b c idx 6 + blockSum ex a b c idx (blockOf 7) :=
    accAfter_add ex a b c idx 6 (by decide) (by decide)
  have b1 : blockOf 1 = (0 : Fin 8) := rfl
  have b3 : blockOf 3 = (1 : Fin 8) := rfl
  have b5 : blockOf 5 = (2 : Fin 8) := rfl
  have b7 : blockOf 7 = (3 : Fin 8) := rfl
  rw [h7, h6, h5, h4, h3, h2, h1, h0, b1, b3, b5, b7]

/-- The second core's total: row blocks 4, 5, 6, 7. -/
private theorem accAfter_15 :
    accAfter ex a b c idx 15 =
      (((0 + blockSum ex a b c idx 4) + blockSum ex a b c idx 5) + blockSum ex a b c idx 6) + blockSum ex a b c idx 7 := by
  have h8 : accAfter ex a b c idx 8 = 0 := accAfter_reset ex a b c idx 7 (by decide)
  have h9 : accAfter ex a b c idx 9 = accAfter ex a b c idx 8 + blockSum ex a b c idx (blockOf 9) :=
    accAfter_add ex a b c idx 8 (by decide) (by decide)
  have h10 : accAfter ex a b c idx 10 = accAfter ex a b c idx 9 := accAfter_keep ex a b c idx 9 (by decide) (by decide)
  have h11 : accAfter ex a b c idx 11 = accAfter ex a b c idx 10 + blockSum ex a b c idx (blockOf 11) :=
    accAfter_add ex a b c idx 10 (by decide) (by decide)
  have h12 : accAfter ex a b c idx 12 = accAfter ex a b c idx 11 := accAfter_keep ex a b c idx 11 (by decide) (by decide)
  have h13 : accAfter ex a b c idx 13 = accAfter ex a b c idx 12 + blockSum ex a b c idx (blockOf 13) :=
    accAfter_add ex a b c idx 12 (by decide) (by decide)
  have h14 : accAfter ex a b c idx 14 = accAfter ex a b c idx 13 := accAfter_keep ex a b c idx 13 (by decide) (by decide)
  have h15 : accAfter ex a b c idx 15 = accAfter ex a b c idx 14 + blockSum ex a b c idx (blockOf 15) :=
    accAfter_add ex a b c idx 14 (by decide) (by decide)
  have b9 : blockOf 9 = (4 : Fin 8) := rfl
  have b11 : blockOf 11 = (5 : Fin 8) := rfl
  have b13 : blockOf 13 = (6 : Fin 8) := rfl
  have b15 : blockOf 15 = (7 : Fin 8) := rfl
  rw [h15, h14, h13, h12, h11, h10, h9, h8, b9, b11, b13, b15]

/-- An entry of the result array by its two coordinates. -/
private theorem outG_ix2 (s : Fin 16) (t : Fin 128) :
    outG ex a b c idx (ix2 s t) =
      if s.val % 8 = 0 ∧ t.val = 0 then accAfter ex a b c idx (8 * (s.val / 8) + 7) else 0 := rfl

/-- Along a row of the result array only column 0 can be nonzero. -/
private theorem sum_col (P : Prop) [Decidable P] (X : EReal) :
    ∑ t : Fin 128, (if P ∧ t.val = 0 then X else 0) = if P then X else 0 := by
  rw [Finset.sum_eq_single (0 : Fin 128)]
  · by_cases hP : P
    · rw [if_pos ⟨hP, rfl⟩, if_pos hP]
    · rw [if_neg (fun h => hP h.1), if_neg hP]
  · intro t _ ht
    exact if_neg (fun h => ht (Fin.ext h.2))
  · intro h
    exact absurd (Finset.mem_univ _) h

/-- The result array's entries sum to the two cores' totals. -/
private theorem sum_outG_acc :
    (∑ p : (⟨2, ![16, 128]⟩ : Shape).Idx, outG ex a b c idx p) = accAfter ex a b c idx 7 + accAfter ex a b c idx 15 := by
  rw [sum_idx2]
  simp only [outG_ix2, sum_col]
  rw [Fin.sum_univ_eq_sum_range (fun n => if n % 8 = 0 then accAfter ex a b c idx (8 * (n / 8) + 7) else 0) 16]
  simp [Finset.sum_range_succ]

/-- A row's margin terms from the chunked squared distances are the kernel's row. -/
private theorem rowTerm_eq_rowK (i : Fin 4096) :
    rowTerm (idx (ix1 i)) (ss2 ex a i) (ss2 ex b i) (ss2 ex c i) = rowK ex a b c idx i := by
  rw [ss2_eq_ssK, ss2_eq_ssK, ss2_eq_ssK]
  rfl

/-- The eight row blocks of 512 rows are the 4096 rows. -/
private theorem sum_blockSum : (∑ bk : Fin 8, blockSum ex a b c idx bk) = ∑ i : Fin 4096, rowK ex a b c idx i := by
  unfold blockSum
  refine Eq.symm ?_
  refine (sum_fin_mul (m := 8) (n := 512) (fun i : Fin 4096 => rowK ex a b c idx i) rowOf (fun _ _ => rfl)).trans ?_
  refine Finset.sum_congr rfl (fun bk _ => Finset.sum_congr rfl (fun r _ => ?_))
  exact (rowTerm_eq_rowK ex a b c idx (rowOf bk r)).symm

end

/-- The result array's entries sum to the kernel's sum over all rows. -/
theorem sum_outG (ex a b c : SBD.Idx → EReal) (idx : SB.Idx → BitVec 32) :
    (∑ p : (⟨2, ![16, 128]⟩ : Shape).Idx, outG ex a b c idx p) = ∑ i : Fin 4096, rowK ex a b c idx i := by
  rw [sum_outG_acc, accAfter_7, accAfter_15, ← sum_blockSum, Fin.sum_univ_eight]
  simp only [zero_add, add_assoc]

end Cert.Triplet

end
-- ==== Proof.KFinal.lean ====
/-
  The kernel program's result.  Each core's last point writes its 8 x 128 block of the 16 x 128 array: the core's total
  at the block's entry (0, 0), zero elsewhere; the two blocks cover the array.  The host then sums the array's entries,
  takes 4096 off and divides by 8192: the kernel's order of the loss.
-/
import proofs.«424818_j9096740733656_3_alg».proof.Proof.KInv
import proofs.«424818_j9096740733656_3_alg».proof.Proof.KSum
import Idealize.ShloMosaic.Lib.StableHlo.Run

noncomputable section
open scoped BigOperators
open Idealize.ShloMosaic Idealize.ShloMosaic.TcCoe Idealize.SL.Sem Idealize.ShloMosaic.ValueIdx
open Idealize.ShloMosaic.Pipeline (Dat)

namespace Cert.KernelIdeal.Pieces
open Cert.KernelIdeal Cert.KernelIdeal.Gen
open Cert.Triplet
variable (m : (ℓ : Loc nD τ sig) → Buf (Elt Ideal) ℓ) (ρ : Dev nD → PrngReg)

/-- The result array as one function of the arguments. -/
abbrev outArr (c : Dev nD) : S16x128.Idx → EReal := outG (aEx m c) (aA m c) (aB m c) (aC m c) (aIdx m c)

/-- The output window's block index: the core, column 0. -/
theorem idx5 : ∀ t : Fin cfg0.N, win0_5.index t 0 = t.val / 8 ∧ win0_5.index t 1 = 0 :=
  (by decide +kernel : ∀ t : Fin grid0.N, _)

/-- What a core's last point writes back is its block of the result array. -/
theorem flushed_eq (c : Dev nD) (t : Fin cfg0.N) (hf : (cfg0.win 5).flush t = true) :
    (dats m 0 c).flushed 5 t = ((cfg0.win 5).blk t).view.read (Elt Ideal) (outArr m c) := by
  have h7 : t.val % 8 = 7 := (flush0_5 t).mp hf
  have hN : t.val < 16 := lt_of_lt_of_eq t.isLt (show cfg0.N = 16 from N_0)
  have h0 : ¬t.val % 8 = 0 := by omega
  have h1 : ¬t.val % 2 = 0 := by omega
  have h2 : t.val % 2 = 1 := by omega
  obtain ⟨e50, e51⟩ := idx5 t
  show (cfg0.win 5).cut (grid0.coords t) ((dats m 0 c).after 5 t) = _
  rw [after0_5, outD m c t h0 h1 h2 h7, ← accD m c t h0 h1 h2 h7]
  funext y
  obtain ⟨p, q, rfl⟩ : ∃ (p : Fin 8) (q : Fin 128), y = ix2 p q := ⟨y 0, y 1, eq_ix2 y⟩
  show k0_pay3 (F := Ideal) (outsAt0 m c t.val t.isLt).2.1 (ix2 p q) = outArr m c (((cfg0.win 5).blk t).view.emb (ix2 p q))
  refine (pay3_apply (outsAt0 m c t.val t.isLt).2.1 p q).trans ?_
  rw [(inv m c t.val t.isLt).acc]
  have e0 : ((((cfg0.win 5).blk t).view.emb (ix2 p q)) 0).val = 8 * (t.val / 8) + p.val := by
    show win0_5.index t 0 * 8 + 1 * p.val = _
    rw [e50]; omega
  have e1 : ((((cfg0.win 5).blk t).view.emb (ix2 p q)) 1).val = q.val := by
    show win0_5.index t 1 * 128 + 1 * q.val = _
    rw [e51]; omega
  show _ = if ((((cfg0.win 5).blk t).view.emb (ix2 p q)) 0).val % 8 = 0 ∧ ((((cfg0.win 5).blk t).view.emb (ix2 p q)) 1).val = 0
      then accAfter (aEx m c) (aA m c) (aB m c) (aC m c) (aIdx m c) (8 * (((((cfg0.win 5).blk t).view.emb (ix2 p q)) 0).val / 8) + 7) else 0
  rw [e0, e1]
  have hp8 : p.val < 8 := p.isLt
  have ht : 8 * ((8 * (t.val / 8) + p.val) / 8) + 7 = t.val := by omega
  by_cases hp : p.val = 0 ∧ q.val = 0
  · rw [if_pos hp, if_pos ⟨by omega, hp.2⟩, ht]
  · rw [if_neg hp, if_neg (fun h => hp ⟨by omega, h.2⟩)]

/-- An index of the array is in point t's block iff each coordinate is in the block's range. -/
theorem mem_blk5 (t : Fin cfg0.N) (i : S16x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v1).slice (win0_5.rect t)).set ↔ _
  rw [View.set_slice_whole, Rect.mem_set_unit]
  exact Iff.rfl

/-- The result array after the run. -/
theorem final5 (c : Dev nD) : (dats m 0 c).arrAt 5 cfg0.N = outArr m c :=
  (dats m 0 c).arrAt_eq_of_cover 5 (outArr m c) (flushed_eq m c) fun i => by
    have hi0 : (i 0).val < 16 := (i 0).isLt
    have hi1 : (i 1).val < 128 := (i 1).isLt
    have hN : cfg0.N = 16 := N_0
    refine ⟨⟨8 * ((i 0).val / 8) + 7, by rw [hN]; omega⟩, (flush0_5 _).mpr (by show (8 * ((i 0).val / 8) + 7) % 8 = 7; omega), ?_⟩
    rw [mem_blk5]
    obtain ⟨e50, e51⟩ := idx5 ⟨8 * ((i 0).val / 8) + 7, by rw [hN]; omega⟩
    intro a
    match a with
    | ⟨0, _⟩ =>
      show win0_5.index _ 0 * 8 ≤ (i 0).val ∧ (i 0).val < win0_5.index _ 0 * 8 + 8
      rw [e50]; show (8 * ((i 0).val / 8) + 7) / 8 * 8 ≤ (i 0).val ∧ (i 0).val < (8 * ((i 0).val / 8) + 7) / 8 * 8 + 8; omega
    | ⟨1, _⟩ =>
      show win0_5.index _ 1 * 128 ≤ (i 1).val ∧ (i 1).val < win0_5.index _ 1 * 128 + 128
      rw [e51]; omega

/-- The host's three operations after the region, on the result array: the kernel's order of the loss. -/
theorem tail_v4 (c : Dev nD) :
    Pipeline.afterTail₀ cfgs (dats m) 0 (V0 m) [hostOps1] c main_v4
      = fun _ => resK (aEx m c) (aA m c) (aB m c) (aC m c) (aIdx m c) := by
  unfold Pipeline.afterTail₀
  show StableHlo.after hostOps1 _ (Proc.devRef .tc main_v4) = _
  after_results
  rw [show Pipeline.withArrays _ c _ _ (Proc.devRef .tc main_v1) = outArr m c from
    (Pipeline.withArrays_arr spec0 launch0.win.arr_inj c _ _ 5).trans (final5 m c)]
  funext i
  show Ideal.div ((Ideal.hostReduceAdd reducesTo_S16x128_S_d0_1 (outArr m c) (Ideal.ofBits .f32 0x00000000#32) i) - Ideal.ofBits .f32 0x45800000#32) (Ideal.ofBits .f32 0x46000000#32) = _
  rw [Ideal.hostReduceAdd_total reducesTo_S16x128_S_d0_1 (fun b => b.elim0) (outArr m c) _ i, Ideal.ofBits_zero_f32, zero_add]
  unfold resK
  rw [← sum_outG]
  rfl

/-- The kernel program's run: its result, and the arguments unchanged. -/
theorem run : θ_run defs (onTc (τ := τ) (main (F := Ideal))) ⟨m, fun _ => 0, ρ⟩ (fun r => ∀ c : Dev nD,
      r.2.mem ((c.tc : Thread nD τ).loc main_v4) = (fun _ => resK (aEx m c) (aA m c) (aB m c) (aC m c) (aIdx m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_v4 m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c)⟩)
    (run_main m ρ)

end Cert.KernelIdeal.Pieces
end
-- ==== Proof.RefValue.lean ====
/-
  The reference program's result, read off its run one operation at a time: with every label 0, 1 or 2 it is the
  reference's order of the triplet-margin loss.
-/
import proofs.«424818_j9096740733656_3_alg».proof.Proof.Gen.ReferenceIdeal.Read
import proofs.«424818_j9096740733656_3_alg».proof.Proof.Spec
import Idealize.ShloMosaic.PureOps.Reduce
import Idealize.ShloMosaic.Lib.ValueIdx
import Idealize.ShloMosaic.Lib.Affine

noncomputable section

open scoped BigOperators

namespace Cert.Triplet

open Idealize.ShloMosaic Idealize.ShloMosaic.ValueIdx
open Cert.ReferenceIdeal Cert.ReferenceIdeal.Gen Cert.ReferenceIdeal.Read

/-! ## Three shape operations read at an index -/

/-- A left fold by "and" over one-bit words that are all 1, started at 1, is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduction by "and" of an array of 1s from the initial value 1 is 1 at every index. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- A natural number clamped into the three choices. -/
private def clamp3 (n : Nat) : Fin 3 := ⟨min n 2, Nat.lt_succ_of_le (Nat.min_le_right n 2)⟩

private abbrev G := gather_S4096x3x2048_S4096x1x1_S4096x1x2048_2_1_0_0_1_2_112048

/-- The gather along the middle axis at (a, b, c): the operand at row a, at the choice the start index of row a names
    (read signed and clamped into the three choices), at lane c. -/
private theorem gather_read_idx {α : Type} (x : S4096x3x2048.Idx → α) (idx : IVec S4096x1x1 32) (j : S4096x1x2048.Idx) :
    Host.gather G x idx j = x (ix3 (j 0) (clamp3 (idx (ix3 (j 0) (j 1) 0)).toInt.toNat) (j 2)) := by
  unfold Host.gather
  congr 1
  funext a
  refine Fin.ext ?_
  show G.start j idx a + G.batchCoord j a + G.offCoord j a = _
  have ha : a = 0 ∨ a = 1 ∨ a = 2 := by revert a; decide
  rcases ha with rfl | rfl | rfl
  · rw [G.start_batching j idx 0 (List.mem_singleton.mpr rfl),
      G.offCoord_eq_zero j 0 (fun h => ((G.mem_sKept _).mp h).2 (List.mem_singleton.mpr rfl)), Nat.zero_add, Nat.add_zero]
    rfl
  · rw [G.batchCoord_eq_zero j 1 (by decide),
      G.offCoord_eq_zero j 1 (fun h => ((G.mem_sKept _).mp h).1 (List.mem_singleton.mpr rfl)), Nat.add_zero]
    unfold GatherDims.start
    rw [dif_pos (show (1 : Fin 3) ∈ G.startIndexMap from List.mem_singleton.mpr rfl)]
    have hsi : G.siIdx j ⟨List.idxOf (1 : Fin 3) G.startIndexMap,
        List.idxOf_lt_length_iff.2 (List.mem_singleton.mpr rfl)⟩ = ix3 (j 0) (j 1) 0 := by
      funext b; refine Fin.ext ?_
      match b with
      | ⟨0, _⟩ => rfl
      | ⟨1, _⟩ => rfl
      | ⟨2, _⟩ => rfl
    rw [hsi]
    rfl
  · rw [G.batchCoord_eq_zero j 2 (by decide), Nat.add_zero]
    unfold GatherDims.start
    rw [dif_neg (by decide), Nat.zero_add]
    rfl

private theorem gather_read {α : Type} (x : S4096x3x2048.Idx → α) (idx : IVec S4096x1x1 32) (a : Fin 4096) (b : Fin 1)
    (c : Fin 2048) :
    Host.gather G x idx (ix3 a b c) = x (ix3 a (clamp3 (idx (ix3 a b 0)).toInt.toNat) c) :=
  gather_read_idx x idx (ix3 a b c)

/-- The three choices joined along the middle axis, at (a, k, l): choice k at (a, 0, l). -/
private theorem concat_read {α : Type} (y0 y1 y2 : S4096x1x2048.Idx → α)
    (h : Shape.Concatenates [S4096x1x2048, S4096x1x2048, S4096x1x2048] S4096x3x2048 1) (a : Fin 4096) (k : Fin 3) (l : Fin 2048) :
    concatenate S4096x3x2048 1 [⟨S4096x1x2048, y0⟩, ⟨S4096x1x2048, y1⟩, ⟨S4096x1x2048, y2⟩] h (ix3 a k l)
      = (match k with | 0 => y0 | 1 => y1 | 2 => y2) (ix3 a 0 l) := by
  have hk : k = 0 ∨ k = 1 ∨ k = 2 := by revert k; decide
  have hi : ∀ b : Fin S4096x1x2048.rank, b.cast (rfl : S4096x1x2048.rank = S4096x3x2048.rank) ≠ 1 →
      ((ix3 a (0 : Fin 1) l : S4096x1x2048.Idx) b).val = ((ix3 a k l : S4096x3x2048.Idx) (b.cast rfl)).val := fun b =>
    match b with
    | ⟨0, _⟩ => fun _ => rfl
    | ⟨1, _⟩ => fun hb => absurd rfl hb
    | ⟨2, _⟩ => fun _ => rfl
  rcases hk with rfl | rfl | rfl
  · exact concatenate_apply_piece (t := S4096x3x2048) 1 [⟨S4096x1x2048, y0⟩, ⟨S4096x1x2048, y1⟩, ⟨S4096x1x2048, y2⟩] h _
      0 (by show (0 : Nat) < 3; decide) S4096x1x2048 y0 rfl rfl 0 rfl (ix3 a 0 l) hi rfl
  · exact concatenate_apply_piece (t := S4096x3x2048) 1 [⟨S4096x1x2048, y0⟩, ⟨S4096x1x2048, y1⟩, ⟨S4096x1x2048, y2⟩] h _
      1 (by show (1 : Nat) < 3; decide) S4096x1x2048 y1 rfl rfl 1 rfl (ix3 a 0 l) hi rfl
  · exact concatenate_apply_piece (t := S4096x3x2048) 1 [⟨S4096x1x2048, y0⟩, ⟨S4096x1x2048, y1⟩, ⟨S4096x1x2048, y2⟩] h _
      2 (by show (2 : Nat) < 3; decide) S4096x1x2048 y2 rfl rfl 2 rfl (ix3 a 0 l) hi rfl

/-! ## Words: a label that is 0, 1 or 2 -/

/-- A label in range is not negative, so the normalised index is the label itself. -/
private theorem norm_label (w : BitVec 32) (hw : w = 0#32 ∨ w = 1#32 ∨ w = 2#32) :
    Scalar.select (IntOp.cmpi .slt w 0#32) (IntOp.addi w 3#32) w = w := by
  rcases hw with rfl | rfl | rfl <;> decide

/-- A label in range passes the range test. -/
private theorem in_range (w : BitVec 32) (hw : w = 0#32 ∨ w = 1#32 ∨ w = 2#32) :
    IntOp.andi (IntOp.cmpi .sge w 0#32) (IntOp.cmpi .sle w 2#32) = 1#1 := by
  rcases hw with rfl | rfl | rfl <;> decide

/-- A select on "the two words differ" is the "if" on their difference. -/
private theorem select_cmpi_ne {α : Type} (a b : BitVec 32) (X Y : α) :
    Scalar.select (IntOp.cmpi .ne a b) X Y = if a ≠ b then X else Y := by
  by_cases h : a ≠ b
  · exact (if_pos (IntOp.cmpi_ne.mpr h)).trans (if_pos h).symm
  · exact (if_neg (fun e => h (IntOp.cmpi_ne.mp e))).trans (if_neg h).symm

/-- The choice a label in range clamps to is the one it picks. -/
private theorem choice_clamp {α : Type} (w : BitVec 32) (hw : w = 0#32 ∨ w = 1#32 ∨ w = 2#32) (f : Fin 3 → α) :
    f (clamp3 w.toInt.toNat) = pick w (f 0) (f 1) (f 2) := by
  rcases hw with rfl | rfl | rfl <;> rfl

/-! ## Indices: the composed index maps of the stages, by coordinates -/

private theorem idx_v0 (a : Fin 4096) (b : Fin 1) (c : Fin 2048) : idx_main_v0 (ix3 a b c) = ix2 a c :=
  funext fun d => Fin.ext (by match d with | ⟨0, _⟩ => rfl | ⟨1, _⟩ => rfl)
private theorem idx_v1 (a : Fin 4096) (b : Fin 1) (c : Fin 2048) : idx_main_v1 (ix3 a b c) = ix2 a c :=
  funext fun d => Fin.ext (by match d with | ⟨0, _⟩ => rfl | ⟨1, _⟩ => rfl)
private theorem idx_v2 (a : Fin 4096) (b : Fin 1) (c : Fin 2048) : idx_main_v2 (ix3 a b c) = ix2 a c :=
  funext fun d => Fin.ext (by match d with | ⟨0, _⟩ => rfl | ⟨1, _⟩ => rfl)
private theorem idx_v4 (j : S4096x1x1.Idx) : idx_main_v4 j = ix1 (j 0) :=
  funext fun d => Fin.ext (by match d with | ⟨0, _⟩ => rfl)
private theorem idx_v6 (a : Fin 4096) (c : Fin 2048) : idx_main_v6 (ix2 a c) = ix3 a 0 c :=
  funext fun d => Fin.ext (by
    match d with
    | ⟨0, _⟩ => show (a.val * 2048 + c.val) / 2048 = a.val; omega
    | ⟨1, _⟩ => rfl
    | ⟨2, _⟩ => show (a.val * 2048 + c.val) % 2048 = c.val; omega)
private theorem idx_v11 (a : Fin 4096) (c : Fin 2048) : idx_main_v11 (ix1 a) c = ix2 a c :=
  funext fun d => Fin.ext (by match d with | ⟨0, _⟩ => rfl | ⟨1, _⟩ => rfl)
private theorem idx_v13_v14 (a : Fin 4096) (k : Fin 3) (c : Fin 2048) : idx_main_v13 (idx_main_v14 (ix3 a k c)) = ix2 a c :=
  funext fun d => Fin.ext (by match d with | ⟨0, _⟩ => rfl | ⟨1, _⟩ => rfl)
private theorem idx_v19 (a : Fin 4096) (k : Fin 3) (c : Fin 2048) : idx_main_v19 (ix2 a k) c = ix3 a k c :=
  funext fun d => Fin.ext (by match d with | ⟨0, _⟩ => rfl | ⟨1, _⟩ => rfl | ⟨2, _⟩ => rfl)
private theorem idx_v21_v22 (a : Fin 4096) (k : Fin 3) : idx_main_v21 (idx_main_v22 (ix2 a k)) = ix1 a :=
  funext fun d => Fin.ext (by match d with | ⟨0, _⟩ => rfl)
private theorem idx_v30_v32 (a : Fin 4096) (k : Fin 3) : idx_main_v30 (idx_main_v32 (ix2 a k)) = ix1 a :=
  funext fun d => Fin.ext (by match d with | ⟨0, _⟩ => rfl)

/-! ## The stages -/

section Stages

variable (x0 x1 x2 x3 : (⟨S4096x2048, .f32⟩ : BufTy).Contents (Elt Ideal))
  (x4 : (⟨S4096, .i32⟩ : BufTy).Contents (Elt Ideal))

/-- The joined choices at (a, k, l): choice k at (a, l). -/
private theorem v3_read (a : Fin 4096) (k : Fin 3) (l : Fin 2048) :
    val_main_v3 (F := Ideal) x1 x2 x3 (ix3 a k l) = choice x1 x2 x3 k (ix2 a l) := by
  unfold val_main_v3
  rw [concat_read]
  have hk : k = 0 ∨ k = 1 ∨ k = 2 := by revert k; decide
  rcases hk with rfl | rfl | rfl
  · exact (val_main_v0_apply x1 _).trans (congrArg x1 (idx_v0 a 0 l))
  · exact (val_main_v1_apply x2 _).trans (congrArg x2 (idx_v1 a 0 l))
  · exact (val_main_v2_apply x3 _).trans (congrArg x3 (idx_v2 a 0 l))

variable {x4} (hidx : Labels x4)
include hidx

/-- The normalised index of a row is the row's label. -/
private theorem call0_v4_read (j : S4096x1x1.Idx) : val_main_call0_v4 (F := Ideal) x4 j = x4 (ix1 (j 0)) := by
  rw [val_main_call0_v4_apply, val_main_call0_v1_apply, val_main_call0_v3_apply, val_main_call0_v0_apply,
    val_main_call0_c_apply, val_main_call0_v2_apply, val_main_call0_c_0_apply, val_main_v4_apply, idx_v4]
  exact norm_label _ (hidx (j 0))

/-- The range test holds at every row. -/
private theorem call0_v10_read (j : S4096x1x1.Idx) : val_main_call0_v10 (F := Ideal) x4 j = 1#1 := by
  rw [val_main_call0_v10_apply, val_main_call0_v6_apply, val_main_call0_v9_apply, val_main_call0_v5_apply,
    val_main_call0_c_2_apply, val_main_call0_v8_apply, val_main_call0_v7_apply, val_main_call0_c_1_apply,
    call0_v4_read hidx]
  exact in_range _ (hidx (j 0))

/-- So the gather's mask is 1 everywhere. -/
private theorem call0_v13_read (j : S4096x1x2048.Idx) : val_main_call0_v13 (F := Ideal) x4 j = 1#1 := by
  rw [val_main_call0_v13_apply]
  unfold val_main_call0_v11
  exact reduce_andi_ones _ _ _ _ (call0_v10_read hidx) (fun _ => rfl) _

/-- The gathered row at (a, 0, l): the labelled choice's lane. -/
private theorem call0_v12_read (a : Fin 4096) (l : Fin 2048) :
    val_main_call0_v12 (F := Ideal) x1 x2 x3 x4 (ix3 a 0 l)
      = pick (x4 (ix1 a)) (x1 (ix2 a l)) (x2 (ix2 a l)) (x3 (ix2 a l)) := by
  unfold val_main_call0_v12
  refine (gather_read _ _ a 0 l).trans ?_
  rw [call0_v4_read hidx]
  refine (choice_clamp (x4 (ix1 a)) (hidx a) fun k => val_main_v3 (F := Ideal) x1 x2 x3 (ix3 a k l)).trans ?_
  rw [v3_read, v3_read, v3_read]
  rfl

/-- The reference's positive row. -/
private theorem v6_read (a : Fin 4096) (l : Fin 2048) :
    val_main_v6 (F := Ideal) x1 x2 x3 x4 (ix2 a l) = posR x1 x2 x3 x4 (ix2 a l) := by
  rw [val_main_v6_apply, idx_v6, val_main_v5_apply, call0_v13_read hidx, select_one, call0_v12_read x1 x2 x3 hidx]
  rfl

/-- The positive squared distance of row a. -/
private theorem v11_read (a : Fin 4096) :
    val_main_v11 (F := Ideal) x0 x1 x2 x3 x4 (ix1 a) = ssR x0 (posR x1 x2 x3 x4) a := by
  rw [val_main_v11_apply, val_main_cst_0_apply, Ideal.ofBits_def, Ideal.ofBits_zero_f32, zero_add]
  unfold ssR
  refine Finset.sum_congr rfl fun l _ => ?_
  rw [idx_v11, val_main_v10_apply, val_main_v9_apply, val_main_v7_apply, v6_read x1 x2 x3 hidx, val_main_v8_apply,
    val_main_cst_apply]
  rfl

/-- The positive distance of row a. -/
private theorem v12_read (a : Fin 4096) :
    val_main_v12 (F := Ideal) x0 x1 x2 x3 x4 (ix1 a) = Ideal.sqrt (ssR x0 (posR x1 x2 x3 x4) a) := by
  rw [val_main_v12_apply, v11_read x0 x1 x2 x3 hidx, Ideal.hostUnary_sqrt_def]

omit hidx in
/-- The squared distance of row a to choice k. -/
private theorem v19_read (a : Fin 4096) (k : Fin 3) :
    val_main_v19 (F := Ideal) x0 x1 x2 x3 (ix2 a k) = ssR x0 (choice x1 x2 x3 k) a := by
  rw [val_main_v19_apply, val_main_cst_2_apply, Ideal.ofBits_def, Ideal.ofBits_zero_f32, zero_add]
  unfold ssR
  refine Finset.sum_congr rfl fun l _ => ?_
  rw [idx_v19, val_main_v18_apply, val_main_v17_apply, val_main_v15_apply, val_main_v14_apply, val_main_v13_apply,
    idx_v13_v14, v3_read, val_main_v16_apply, val_main_cst_1_apply]
  rfl

/-- The margin term of row a and choice k. -/
private theorem v27_read (a : Fin 4096) (k : Fin 3) :
    val_main_v27 (F := Ideal) x0 x1 x2 x3 x4 (ix2 a k)
      = hinge (Ideal.sqrt (ssR x0 (posR x1 x2 x3 x4) a)) (Ideal.sqrt (ssR x0 (choice x1 x2 x3 k) a)) := by
  rw [val_main_v27_apply, val_main_v25_apply, val_main_v23_apply, val_main_v22_apply, val_main_v21_apply, idx_v21_v22,
    v12_read x0 x1 x2 x3 hidx, val_main_v20_apply, v19_read, val_main_v24_apply, val_main_cst_3_apply,
    val_main_v26_apply, val_main_cst_4_apply]
  simp only [Ideal.ofBits_def, Ideal.ofBits_zero_f32, Ideal.hostUnary_sqrt_def]
  rfl

omit hidx in
/-- The mask of row a and choice k: the choice's number is not the row's label. -/
private theorem v33_read (a : Fin 4096) (k : Fin 3) :
    val_main_v33 (F := Ideal) x4 (ix2 a k) = IntOp.cmpi .ne (BitVec.ofNat 32 k.val) (x4 (ix1 a)) := by
  rw [val_main_v33_apply, val_main_v31_apply, val_main_v29_apply, val_main_v28_apply, val_main_v32_apply,
    val_main_v30_apply, idx_v30_v32]

/-- The masked term of row a and choice k. -/
private theorem v34_read (a : Fin 4096) (k : Fin 3) :
    val_main_v34 (F := Ideal) x0 x1 x2 x3 x4 (ix2 a k) = termR x0 x1 x2 x3 x4 a k := by
  rw [val_main_v34_apply, v33_read, v27_read x0 x1 x2 x3 hidx, val_main_call1_v1_apply, val_main_call1_v0_apply,
    val_main_cst_5_apply, Ideal.ofBits_def, Ideal.ofBits_zero_f32, select_cmpi_ne]
  rfl

end Stages

/-- The last stage of the reference's run, at its one index, is the reference's order of the loss. -/
theorem ref_result
    (x0 x1 x2 x3 : (⟨Cert.ReferenceIdeal.S4096x2048, .f32⟩ : BufTy).Contents (Elt Ideal))
    (x4 : (⟨Cert.ReferenceIdeal.S4096, .i32⟩ : BufTy).Contents (Elt Ideal)) (hidx : Labels x4)
    (i : Cert.ReferenceIdeal.S_.Idx) :
    Cert.ReferenceIdeal.Read.val_main_v36 (F := Ideal) x0 x1 x2 x3 x4 i = resR x0 x1 x2 x3 x4 := by
  rw [val_main_v36_apply, val_main_v35_apply, val_main_cst_6_apply, val_main_cst_7_apply, Ideal.hostDivf_def]
  simp only [Ideal.ofBits_def, Ideal.ofBits_zero_f32, zero_add]
  unfold resR c8192
  refine congrArg (fun s => Ideal.div s _) ?_
  refine (sum_idx2 (n0 := 4096) (n1 := 3) _).trans ?_
  exact Finset.sum_congr rfl fun a _ => Finset.sum_congr rfl fun k _ => v34_read x0 x1 x2 x3 hidx a k

end Cert.Triplet

end
-- ==== Proof.Algebra.lean ====
/-
  The two orders of the triplet-margin loss are one extended real when every embedding entry is a real number and
  every label is 0, 1 or 2.
-/
import proofs.«424818_j9096740733656_3_alg».proof.Proof.Spec
import Mathlib.Order.MinMax
import Mathlib.Algebra.BigOperators.Fin
import Mathlib.Analysis.Real.Sqrt

noncomputable section

open scoped BigOperators

namespace Cert.Triplet

open Idealize.ShloMosaic Idealize.ShloMosaic.ValueIdx

/-! ### The constants -/

/-- The small offset is a real number. -/
private theorem eps_real : ∃ r : ℝ, eps = (r : EReal) := by
  unfold eps
  simp [Ideal.ofBits, Ideal.ieee, -EReal.coe_mul]

/-- The margin is the real 1. -/
private theorem c1_eq : c1 = ((1 : ℝ) : EReal) := by
  unfold c1
  simp [Ideal.ofBits, Ideal.ieee, -EReal.coe_mul]; norm_num

/-- The number of rows is the real 4096. -/
private theorem c4096_eq : c4096 = ((4096 : ℝ) : EReal) := by
  unfold c4096
  simp [Ideal.ofBits, Ideal.ieee, -EReal.coe_mul]; norm_num

/-- The offset as a real. -/
private def epsR : ℝ := Classical.choose eps_real

private theorem eps_eq : eps = (epsR : EReal) := Classical.choose_spec eps_real

/-! ### Coercion of the reals through maximum and finite sums -/

private theorem coe_max (x y : ℝ) : ((max x y : ℝ) : EReal) = max (x : EReal) (y : EReal) :=
  EReal.coe_strictMono.monotone.map_max

private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The real mirrors -/

/-- A row's squared distance to a choice, over the reals. -/
private def ssr (X K : SBD.Idx → ℝ) (i : Fin 4096) : ℝ :=
  ∑ j : Fin 2048, ((X (ix2 i j) - K (ix2 i j)) + epsR) * ((X (ix2 i j) - K (ix2 i j)) + epsR)

private theorem ssr_nonneg (X K : SBD.Idx → ℝ) (i : Fin 4096) : 0 ≤ ssr X K i :=
  Finset.sum_nonneg fun j _ => mul_self_nonneg _

/-- One margin term over the reals. -/
private def hr (p d : ℝ) : ℝ := max ((p - d) + 1) 0

private theorem hr_self (p : ℝ) : hr p p = 1 := by
  unfold hr; rw [sub_self, zero_add]; exact max_eq_left zero_le_one

private theorem devK_coe (x k : ℝ) : devK (x : EReal) (k : EReal) = (((x - k) + epsR : ℝ) : EReal) := by
  unfold devK
  rw [eps_eq, ← EReal.coe_add, ← EReal.coe_sub]
  congr 1; ring

private theorem devR_coe (x k : ℝ) : devR (x : EReal) (k : EReal) = (((x - k) + epsR : ℝ) : EReal) := by
  unfold devR
  rw [eps_eq, ← EReal.coe_sub, ← EReal.coe_add]

private theorem ssK_coe (X K : SBD.Idx → ℝ) (i : Fin 4096) :
    ssK (fun p => (X p : EReal)) (fun p => (K p : EReal)) i = (ssr X K i : EReal) := by
  unfold ssK ssr
  rw [coe_sum]
  refine Finset.sum_congr rfl fun j _ => ?_
  rw [devK_coe, ← EReal.coe_mul]

private theorem ssR_coe (X K : SBD.Idx → ℝ) (i : Fin 4096) :
    ssR (fun p => (X p : EReal)) (fun p => (K p : EReal)) i = (ssr X K i : EReal) := by
  unfold ssR ssr
  rw [coe_sum]
  refine Finset.sum_congr rfl fun j _ => ?_
  rw [devR_coe, ← EReal.coe_mul]

/-- A row's distance to a choice, over the reals. -/
private def dr (X K : SBD.Idx → ℝ) (i : Fin 4096) : ℝ := Real.sqrt (ssr X K i)

private theorem sqrt_ssr (X K : SBD.Idx → ℝ) (i : Fin 4096) :
    Ideal.sqrt ((ssr X K i : ℝ) : EReal) = (dr X K i : EReal) := by
  rw [Ideal.sqrt_coe, if_neg (not_lt.mpr (ssr_nonneg X K i))]; rfl

private theorem hinge_coe (p d : ℝ) : hinge (p : EReal) (d : EReal) = (hr p d : EReal) := by
  unfold hinge hr
  rw [c1_eq, ← EReal.coe_sub, ← EReal.coe_add, ← EReal.coe_zero, ← coe_max]

/-! ### The label's pick -/

private theorem pick_map {α β : Type} (f : α → β) (w : BitVec 32) (x y z : α) :
    f (pick w x y z) = pick w (f x) (f y) (f z) := by
  unfold pick; split_ifs <;> rfl

/-- The reference's positive row has the labelled choice's squared distance. -/
private theorem ssR_posR (ex a b c : SBD.Idx → EReal) (idx : SB.Idx → BitVec 32) (i : Fin 4096) :
    ssR ex (posR a b c idx) i = pick (idx (ix1 i)) (ssR ex a i) (ssR ex b i) (ssR ex c i) := by
  unfold ssR posR pick
  show (∑ j : Fin 2048, devR (ex (ix2 i j)) (if idx (ix1 i) = 0#32 then a (ix2 i j) else if idx (ix1 i) = 1#32 then b (ix2 i j) else c (ix2 i j))
      * devR (ex (ix2 i j)) (if idx (ix1 i) = 0#32 then a (ix2 i j) else if idx (ix1 i) = 1#32 then b (ix2 i j) else c (ix2 i j))) = _
  split_ifs <;> rfl

/-! ### One row -/

/-- One row over the reals: the three margin terms less the labelled one's 1 are the two unlabelled terms. -/
private theorem row_real (l : BitVec 32) (hl : l = 0#32 ∨ l = 1#32 ∨ l = 2#32) (da db dc : ℝ) :
    ((hr (pick l da db dc) da + hr (pick l da db dc) db) + hr (pick l da db dc) dc) - 1
      = (if (0#32 : BitVec 32) ≠ l then hr (pick l da db dc) da else 0)
        + (if (1#32 : BitVec 32) ≠ l then hr (pick l da db dc) db else 0)
        + (if (2#32 : BitVec 32) ≠ l then hr (pick l da db dc) dc else 0) := by
  rcases hl with rfl | rfl | rfl
  · have h1 : ((1#32 : BitVec 32) ≠ 0#32) := by decide
    have h2 : ((2#32 : BitVec 32) ≠ 0#32) := by decide
    have hp : pick (0#32) da db dc = da := by unfold pick; rw [if_pos rfl]
    rw [hp, if_neg (not_not.mpr rfl), if_pos h1, if_pos h2, hr_self]; ring
  · have h0 : ((0#32 : BitVec 32) ≠ 1#32) := by decide
    have h2 : ((2#32 : BitVec 32) ≠ 1#32) := by decide
    have h10 : ¬ ((1#32 : BitVec 32) = 0#32) := by decide
    have hp : pick (1#32) da db dc = db := by unfold pick; rw [if_neg h10, if_pos rfl]
    rw [hp, if_pos h0, if_neg (not_not.mpr rfl), if_pos h2, hr_self]; ring
  · have h0 : ((0#32 : BitVec 32) ≠ 2#32) := by decide
    have h1 : ((1#32 : BitVec 32) ≠ 2#32) := by decide
    have h20 : ¬ ((2#32 : BitVec 32) = 0#32) := by decide
    have h21 : ¬ ((2#32 : BitVec 32) = 1#32) := by decide
    have hp : pick (2#32) da db dc = dc := by unfold pick; rw [if_neg h20, if_neg h21]
    rw [hp, if_pos h0, if_pos h1, if_neg (not_not.mpr rfl), hr_self]; ring

/-- The kernel's row over the reals. -/
private def rk (X A B C : SBD.Idx → ℝ) (idx : SB.Idx → BitVec 32) (i : Fin 4096) : ℝ :=
  (hr (pick (idx (ix1 i)) (dr X A i) (dr X B i) (dr X C i)) (dr X A i)
    + hr (pick (idx (ix1 i)) (dr X A i) (dr X B i) (dr X C i)) (dr X B i))
    + hr (pick (idx (ix1 i)) (dr X A i) (dr X B i) (dr X C i)) (dr X C i)

/-- The reference's row over the reals. -/
private def rr (X A B C : SBD.Idx → ℝ) (idx : SB.Idx → BitVec 32) (i : Fin 4096) : ℝ :=
  (if (0#32 : BitVec 32) ≠ idx (ix1 i) then hr (pick (idx (ix1 i)) (dr X A i) (dr X B i) (dr X C i)) (dr X A i) else 0)
    + (if (1#32 : BitVec 32) ≠ idx (ix1 i) then hr (pick (idx (ix1 i)) (dr X A i) (dr X B i) (dr X C i)) (dr X B i) else 0)
    + (if (2#32 : BitVec 32) ≠ idx (ix1 i) then hr (pick (idx (ix1 i)) (dr X A i) (dr X B i) (dr X C i)) (dr X C i) else 0)

private theorem rowK_coe (X A B C : SBD.Idx → ℝ) (idx : SB.Idx → BitVec 32) (i : Fin 4096) :
    rowK (fun p => (X p : EReal)) (fun p => (A p : EReal)) (fun p => (B p : EReal)) (fun p => (C p : EReal)) idx i
      = (rk X A B C idx i : EReal) := by
  unfold rowK rk
  rw [ssK_coe, ssK_coe, ssK_coe, sqrt_ssr, sqrt_ssr, sqrt_ssr,
    ← pick_map (fun r : ℝ => (r : EReal)), hinge_coe, hinge_coe, hinge_coe, ← EReal.coe_add, ← EReal.coe_add]

private theorem termR_coe (X A B C : SBD.Idx → ℝ) (idx : SB.Idx → BitVec 32) (i : Fin 4096) (k : Fin 3)
    (K : SBD.Idx → ℝ) (hK : choice (fun p => (A p : EReal)) (fun p => (B p : EReal)) (fun p => (C p : EReal)) k = fun p => (K p : EReal)) :
    termR (fun p => (X p : EReal)) (fun p => (A p : EReal)) (fun p => (B p : EReal)) (fun p => (C p : EReal)) idx i k
      = ((if BitVec.ofNat 32 k.val ≠ idx (ix1 i) then
            hr (pick (idx (ix1 i)) (dr X A i) (dr X B i) (dr X C i)) (dr X K i) else 0 : ℝ) : EReal) := by
  unfold termR
  rw [ssR_posR, hK, ssR_coe, ssR_coe, ssR_coe, ssR_coe, pick_map Ideal.sqrt, sqrt_ssr, sqrt_ssr, sqrt_ssr, sqrt_ssr,
    ← pick_map (fun r : ℝ => (r : EReal)), hinge_coe]
  split_ifs
  · rfl
  · exact EReal.coe_zero.symm

private theorem refRow_coe (X A B C : SBD.Idx → ℝ) (idx : SB.Idx → BitVec 32) (i : Fin 4096) :
    (∑ k : Fin 3, termR (fun p => (X p : EReal)) (fun p => (A p : EReal)) (fun p => (B p : EReal)) (fun p => (C p : EReal)) idx i k)
      = (rr X A B C idx i : EReal) := by
  rw [Fin.sum_univ_three, termR_coe X A B C idx i 0 A rfl, termR_coe X A B C idx i 1 B rfl,
    termR_coe X A B C idx i 2 C rfl, ← EReal.coe_add, ← EReal.coe_add]
  rfl

/-! ### The whole loss -/

private theorem res_real (X A B C : SBD.Idx → ℝ) (idx : SB.Idx → BitVec 32) (hidx : Labels idx) :
    resK (fun p => (X p : EReal)) (fun p => (A p : EReal)) (fun p => (B p : EReal)) (fun p => (C p : EReal)) idx
      = resR (fun p => (X p : EReal)) (fun p => (A p : EReal)) (fun p => (B p : EReal)) (fun p => (C p : EReal)) idx := by
  unfold resK resR
  refine congrArg (fun s => Ideal.div s c8192) ?_
  have hK : (∑ i : Fin 4096, rowK (fun p => (X p : EReal)) (fun p => (A p : EReal)) (fun p => (B p : EReal)) (fun p => (C p : EReal)) idx i)
      = ((∑ i : Fin 4096, rk X A B C idx i : ℝ) : EReal) := by
    rw [coe_sum]; exact Finset.sum_congr rfl fun i _ => rowK_coe X A B C idx i
  have hR : (∑ i : Fin 4096, ∑ k : Fin 3, termR (fun p => (X p : EReal)) (fun p => (A p : EReal)) (fun p => (B p : EReal)) (fun p => (C p : EReal)) idx i k)
      = ((∑ i : Fin 4096, rr X A B C idx i : ℝ) : EReal) := by
    rw [coe_sum]; exact Finset.sum_congr rfl fun i _ => refRow_coe X A B C idx i
  rw [hK, hR, c4096_eq, ← EReal.coe_sub]
  congr 1
  have hrow : ∀ i : Fin 4096, rk X A B C idx i - 1 = rr X A B C idx i := fun i =>
    row_real (idx (ix1 i)) (hidx i) (dr X A i) (dr X B i) (dr X C i)
  calc (∑ i : Fin 4096, rk X A B C idx i) - 4096
      = (∑ i : Fin 4096, rk X A B C idx i) - ∑ _i : Fin 4096, (1 : ℝ) := by
        rw [Finset.sum_const, Finset.card_univ, Fintype.card_fin, nsmul_eq_mul, mul_one]; norm_num
    _ = ∑ i : Fin 4096, (rk X A B C idx i - 1) := (Finset.sum_sub_distrib _ _).symm
    _ = ∑ i : Fin 4096, rr X A B C idx i := Finset.sum_congr rfl fun i _ => hrow i

/-- An array of reals is the coercion of a real array. -/
private theorem finite_coe (x : SBD.Idx → EReal) (hx : Finite x) : ∃ X : SBD.Idx → ℝ, x = fun p => (X p : EReal) :=
  ⟨fun p => Classical.choose (hx p), funext fun p => Classical.choose_spec (hx p)⟩

/-- The kernel's order and the reference's order give the same loss. -/
theorem resK_eq_resR (ex a b c : SBD.Idx → EReal) (idx : SB.Idx → BitVec 32)
    (hex : Finite ex) (ha : Finite a) (hb : Finite b) (hc : Finite c) (hidx : Labels idx) :
    resK ex a b c idx = resR ex a b c idx := by
  obtain ⟨X, rfl⟩ := finite_coe ex hex
  obtain ⟨A, rfl⟩ := finite_coe a ha
  obtain ⟨B, rfl⟩ := finite_coe b hb
  obtain ⟨C, rfl⟩ := finite_coe c hc
  exact res_real X A B C idx hidx

end Cert.Triplet

end
-- ==== Proof.PreDecode.lean ====
/-
  What the precondition says of the arguments: every entry of the four embedding arrays is a real number, and every
  label is 0, 1 or 2.

  The precondition is a conjunction of five "for all" statements, each an and-reduction of a boolean array to a scalar:
  four say |x[i,j]| < +∞ at every entry of an embedding array, the fifth says 0 ≤ w[i] < 3 (signed) at every label.
  An and-reduction that came out 1 met only 1s; an extended real whose absolute value is below +∞ is neither infinity,
  so it is a real; a 32-bit word whose signed value is in [0, 3) is one of the words 0, 1, 2.
-/
import proofs.«424818_j9096740733656_3_alg».proof.Pre_finite_inputs
import proofs.«424818_j9096740733656_3_alg».proof.Proof.Spec
import Idealize.ShloMosaic.Lib.ReduceAll
import Idealize.ShloMosaic.Lib.StableHlo.Predicate

noncomputable section

namespace Cert.Triplet

open Idealize.ShloMosaic Idealize.ShloMosaic.ValueIdx

/-- A rank-0 array has one index. -/
private instance : Subsingleton Cert.Pre_finite_inputs.S_.Idx := ⟨fun _ _ => funext fun d => d.elim0⟩

/-- An extended real whose absolute value max x (-x) lies strictly below the value of the word of +∞ is a real number:
    at either infinity the absolute value is +∞ itself. -/
private theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  rw [StableHlo.Predicate.ofBool_eq_one_iff, decide_eq_true_eq] at h
  induction x using EReal.rec with
  | bot => simp at h
  | coe r => exact ⟨r, rfl⟩
  | top => simp at h

/-- A 32-bit word that is at least 0 and below 3, both signed, is 0, 1 or 2: its signed value is one of the three
    integers, and a word is determined by its signed value. -/
private theorem label_of_range (v : BitVec 32) (h0 : IntOp.cmpi .sge v 0#32 = 1#1) (h3 : IntOp.cmpi .slt v 3#32 = 1#1) :
    v = 0#32 ∨ v = 1#32 ∨ v = 2#32 := by
  have a0 : (0#32 : BitVec 32).sle v = true := (StableHlo.Predicate.ofBool_eq_one_iff _).1 h0
  have a3 : v.slt 3#32 = true := (StableHlo.Predicate.ofBool_eq_one_iff _).1 h3
  rw [BitVec.sle, decide_eq_true_eq] at a0
  rw [BitVec.slt, decide_eq_true_eq] at a3
  have e0 : (0#32 : BitVec 32).toInt = 0 := by decide
  have e3 : (3#32 : BitVec 32).toInt = 3 := by decide
  rw [e0] at a0
  rw [e3] at a3
  have hv : v.toInt = 0 ∨ v.toInt = 1 ∨ v.toInt = 2 := by omega
  rcases hv with e | e | e
  · exact Or.inl (BitVec.eq_of_toInt_eq (e.trans (by decide)))
  · exact Or.inr (Or.inl (BitVec.eq_of_toInt_eq (e.trans (by decide))))
  · exact Or.inr (Or.inr (BitVec.eq_of_toInt_eq (e.trans (by decide))))

section
variable [Cert.Pre_finite_inputs.Facts]
open Cert.Pre_finite_inputs Cert.Pre_finite_inputs.Facts

/-- One embedding array's conjunct: the and-reduction over both axes of "|x[i,j]| < +∞" is 1, so the comparison is 1 at
    every entry, and every entry is a real. -/
private theorem finite_of_all (x : FVec Ideal S4096x2048 .f32)
    (h : Host.reduce IntOp.andi
        (cmpf .olt (Host.absf x) (broadcastInDim S4096x2048 ![] bcast_S_S4096x2048 (constant (F := Ideal) S_ .f32 0x7F800000#32)))
        (constantI S_ 1 1#1) reducesTo_S4096x2048_S_d0_1 h_S_ ix0 = 1#1) : Finite x := by
  intro p
  have hp := Host.reduce_andi_all _ _ reducesTo_S4096x2048_S_d0_1 h_S_ ix0 h p
  exact real_of_abs_lt (x p) hp

/-- The labels' conjunct: the and-reduction of "0 ≤ w[i] and w[i] < 3" is 1, so both comparisons are 1 at every label. -/
private theorem labels_of_all (w : IVec S4096 32)
    (h : Host.reduce IntOp.andi
        (andi (cmpi .sge w (broadcastInDim S4096 ![] bcast_S_S4096 (constantI S_ 32 0#32)))
          (cmpi .slt w (broadcastInDim S4096 ![] bcast_S_S4096 (constantI S_ 32 3#32))))
        (constantI S_ 1 1#1) reducesTo_S4096_S_d0 h_S_ ix0 = 1#1) : Labels w := by
  intro i
  have hp := Host.reduce_andi_all _ _ reducesTo_S4096_S_d0 h_S_ ix0 h (ix1 i)
  obtain ⟨h0, h3⟩ := IntOp.andi_eq_one.1 hp
  exact label_of_range (w (ix1 i)) h0 h3

end

/-- The printed precondition, all ones, gives finiteness of the four float arrays and the label range. -/
theorem of_pre [Cert.Pre_finite_inputs.Facts]
    (x0 x1 x2 x3 : FVec Ideal Cert.Pre_finite_inputs.S4096x2048 .f32) (w : IVec Cert.Pre_finite_inputs.S4096 32)
    (h : Cert.Pre_finite_inputs.fn (F := Ideal) x0 x1 x2 x3 w = fun _ => 1#1) :
    Finite x0 ∧ Finite x1 ∧ Finite x2 ∧ Finite x3 ∧ Labels w := by
  -- the scalar result is ((((c0 ∧ c1) ∧ c2) ∧ c3) ∧ cw), one conjunct per argument
  have h' := congrFun h ix0
  dsimp only [Cert.Pre_finite_inputs.fn, Cert.Pre_finite_inputs.fn_part1, Idealize.ShloMosaic.andi] at h'
  obtain ⟨h0123, hw⟩ := IntOp.andi_eq_one.1 h'
  obtain ⟨h012, h3⟩ := IntOp.andi_eq_one.1 h0123
  obtain ⟨h01, h2⟩ := IntOp.andi_eq_one.1 h012
  obtain ⟨h0, h1⟩ := IntOp.andi_eq_one.1 h01
  exact ⟨finite_of_all x0 h0, finite_of_all x1 h1, finite_of_all x2 h2, finite_of_all x3 h3, labels_of_all w hw⟩

end Cert.Triplet

end
-- ==== Proof.lean ====
/-
  The certificate: the kernel and the reference compute the same triplet-margin loss over the extended reals, for
  finite embeddings and labels 0, 1 or 2.

  For each of the 4096 rows the kernel gathers the three squared distances sum_j (ex + eps - k)^2 over two chunks of
  1024 lanes, takes their square roots d_a, d_b, d_c, picks the labelled one as the positive distance p, and adds
  max (p - d_k + 1) 0 over all three choices to a per-core running total; the host adds the two cores' totals, takes
  4096 off and divides by 8192.  The reference gathers the labelled choice's row, computes the same distances with the
  offset added to the difference, masks the labelled choice's term out, sums and divides by 8192.  Over the reals
  (ex + eps) - k = (ex - k) + eps, the labelled choice's unmasked term is max (p - p + 1) 0 = 1, and the 4096 ones are
  what the kernel takes off.  The two frames of the kernel are its generated run, the reference's its run read back;
  the idealization rewrote nothing.
-/
import proofs.«424818_j9096740733656_3_alg».proof.Defs
import proofs.«424818_j9096740733656_3_alg».proof.Proof.Gen.Kernel
import proofs.«424818_j9096740733656_3_alg».proof.Proof.Gen.Kernel.Skeleton
import proofs.«424818_j9096740733656_3_alg».proof.Proof.Gen.Kernel.Launch
import proofs.«424818_j9096740733656_3_alg».proof.Proof.Gen.Kernel.Points
import proofs.«424818_j9096740733656_3_alg».proof.Proof.Gen.Kernel.Frame
import proofs.«424818_j9096740733656_3_alg».proof.Proof.Gen.KernelIdeal
import proofs.«424818_j9096740733656_3_alg».proof.Proof.Gen.KernelIdeal.Skeleton
import proofs.«424818_j9096740733656_3_alg».proof.Proof.Gen.KernelIdeal.Launch
import proofs.«424818_j9096740733656_3_alg».proof.Proof.Gen.KernelIdeal.Points
import proofs.«424818_j9096740733656_3_alg».proof.Proof.Gen.KernelIdeal.Frame
import proofs.«424818_j9096740733656_3_alg».proof.Proof.Gen.ReferenceIdeal
import proofs.«424818_j9096740733656_3_alg».proof.Proof.Gen.ReferenceIdeal.Run
import proofs.«424818_j9096740733656_3_alg».proof.Proof.Gen.ReferenceIdeal.Read
import proofs.«424818_j9096740733656_3_alg».proof.Proof.Gen.Pre_finite_inputs
import proofs.«424818_j9096740733656_3_alg».proof.Proof.KFinal
import proofs.«424818_j9096740733656_3_alg».proof.Proof.RefValue
import proofs.«424818_j9096740733656_3_alg».proof.Proof.Algebra
import proofs.«424818_j9096740733656_3_alg».proof.Proof.PreDecode
import Idealize.ShloMosaic.Adequacy
import Idealize.ShloMosaic.Init

noncomputable section

namespace Cert.Proof

open Idealize.ShloMosaic Idealize.SL.Sem

/-- The word-level kernel runs and leaves its arguments alone: its generated run. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments alone: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same loss: the kernel's order of it and the reference's are one extended real when the
    embeddings are finite and the labels are 0, 1 or 2, which is what the precondition says. -/
theorem algebraic : Cert.algebraic_KernelIdeal_ReferenceIdeal := by
  intro m ρ m' ρ' hpre hagree
  refine ⟨_, Cert.KernelIdeal.Pieces.run m ρ, ?_⟩
  refine (θ_run Cert.ReferenceIdeal.defs _ _).mono (fun _ h c => ⟨(h c).1.trans ?_, (h c).2⟩)
    (Cert.ReferenceIdeal.Value.run (F := Ideal) m' ρ')
  obtain ⟨hex, ha, hb, hc, hidx⟩ := Cert.Triplet.of_pre _ _ _ _ _ (hpre c)
  rw [Cert.ReferenceIdeal.Read.val_main_v36_eq, (hagree c).1, (hagree c).2.1, (hagree c).2.2.1, (hagree c).2.2.2.1,
    (hagree c).2.2.2.2]
  funext i
  rw [Cert.Triplet.ref_result _ _ _ _ _ hidx i]
  exact (Cert.Triplet.resK_eq_resR _ _ _ _ _ hex ha hb hc hidx).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
